-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_5" .f32 0x3E4CCCCD#32 ((1 / 5 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S1x2000000 : Shape := ⟨2, ![1, 2000000]⟩
abbrev S1x32 : Shape := ⟨2, ![1, 32]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S1x2000000 : S_.BroadcastsInDim S1x2000000 (![] : Fin 0 → Fin S1x2000000.rank)
  reducesTo_S1x2000000_S_d0_1 : S1x2000000.ReducesTo [0, 1] S_

variable [Facts]

def fn_part1 {F : FTy → Type} [FloatOps F] (main_arg1 : IVec S1x2000000 32) (main_arg2 : IVec S1x2000000 32) (main_v13 : IVec S_ 1) (main_v15 : IVec S1x2000000 1) (main_c_5 : IVec S_ 32) : IVec S_ 1 :=
  let main_v16 : IVec S1x2000000 32 := broadcastInDim S1x2000000 ![] bcast_S_S1x2000000 main_c_5
  let main_v17 : IVec S1x2000000 1 := cmpi .slt main_arg1 main_v16
  let main_v18 : IVec S1x2000000 1 := andi main_v15 main_v17
  let main_c_6 : IVec S_ 1 := constantI S_ 1 1#1
  let main_v19 : IVec S_ 1 := (fun x v => Host.reduce IntOp.andi x v reducesTo_S1x2000000_S_d0_1 h_S_) main_v18 main_c_6
  let main_v20 : IVec S_ 1 := andi main_v13 main_v19
  let main_c_7 : IVec S_ 32 := constantI S_ 32 0#32
  let main_v21 : IVec S1x2000000 32 := broadcastInDim S1x2000000 ![] bcast_S_S1x2000000 main_c_7
  let main_v22 : IVec S1x2000000 1 := cmpi .sge main_arg2 main_v21
  let main_c_8 : IVec S_ 32 := constantI S_ 32 100000#32
  let main_v23 : IVec S1x2000000 32 := broadcastInDim S1x2000000 ![] bcast_S_S1x2000000 main_c_8
  let main_v24 : IVec S1x2000000 1 := cmpi .slt main_arg2 main_v23
  let main_v25 : IVec S1x2000000 1 := andi main_v22 main_v24
  let main_c_9 : IVec S_ 1 := constantI S_ 1 1#1
  let main_v26 : IVec S_ 1 := (fun x v => Host.reduce IntOp.andi x v reducesTo_S1x2000000_S_d0_1 h_S_) main_v25 main_c_9
  let main_v27 : IVec S_ 1 := andi main_v20 main_v26
  main_v27

def fn {F : FTy → Type} [FloatOps F] (main_arg0 : FVec F S100000x3 .f32) (main_arg1 : IVec S1x2000000 32) (main_arg2 : IVec S1x2000000 32) (main_arg3 : FVec F S1x32 .f32) (main_arg4 : FVec F S1x32 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S1x32 .f32 := Host.absf main_arg3
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S1x32 .f32 := Host.absf main_arg4
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_c_4 : IVec S_ 32 := constantI S_ 32 0#32
  let main_v14 : IVec S1x2000000 32 := broadcastInDim S1x2000000 ![] bcast_S_S1x2000000 main_c_4
  let main_v15 : IVec S1x2000000 1 := cmpi .sge main_arg1 main_v14
  let main_c_5 : IVec S_ 32 := constantI S_ 32 100000#32
  fn_part1 (F := F) main_arg1 main_arg2 main_v13 main_v15 main_c_5
-- ==== Kernel.lean ====
abbrev S100000x3 : Shape := ⟨2, ![100000, 3]⟩
abbrev S1x2000000 : Shape := ⟨2, ![1, 2000000]⟩
abbrev S1x32 : Shape := ⟨2, ![1, 32]⟩
abbrev S2000000 : Shape := ⟨1, ![2000000]⟩
abbrev S_ : Shape := ⟨0, ![]⟩
abbrev S2000000x1 : Shape := ⟨2, ![2000000, 1]⟩
abbrev S1 : Shape := ⟨1, ![1]⟩
abbrev S1x1 : Shape := ⟨2, ![1, 1]⟩
abbrev S2000000x3 : Shape := ⟨2, ![2000000, 3]⟩
abbrev S500000x4 : Shape := ⟨2, ![500000, 4]⟩
abbrev S1x1x1x32 : Shape := ⟨4, ![1, 1, 1, 32]⟩
abbrev S1x1x4x32 : Shape := ⟨4, ![1, 1, 4, 32]⟩
abbrev S1x128 : Shape := ⟨2, ![1, 128]⟩
abbrev S500000x128 : Shape := ⟨2, ![500000, 128]⟩
abbrev S10000x4 : Shape := ⟨2, ![10000, 4]⟩
abbrev S10000x128 : Shape := ⟨2, ![10000, 128]⟩
abbrev S10000x1 : Shape := ⟨2, ![10000, 1]⟩
abbrev S10000x32 : Shape := ⟨2, ![10000, 32]⟩
abbrev S2000000x32 : Shape := ⟨2, ![2000000, 32]⟩

abbrev nBuf : Space → Nat
  | .hbm => 67
  | .vmem => 6
  | .smem => 0
  | _ => 0

abbrev bufTy : (tb : Table) → Fin (tcTables nBuf tb) → BufTy
  | .hbm, ⟨0, _⟩ => ⟨S100000x3, .f32⟩
  | .hbm, ⟨1, _⟩ => ⟨S1x2000000, .i32⟩
  | .hbm, ⟨2, _⟩ => ⟨S1x2000000, .i32⟩
  | .hbm, ⟨3, _⟩ => ⟨S1x32, .f32⟩
  | .hbm, ⟨4, _⟩ => ⟨S1x32, .f32⟩
  | .hbm, ⟨5, _⟩ => ⟨S2000000, .i32⟩
  | .hbm, ⟨6, _⟩ => ⟨S2000000, .i32⟩
  | .hbm, ⟨7, _⟩ => ⟨S_, .i32⟩
  | .hbm, ⟨8, _⟩ => ⟨S2000000, .i32⟩
  | .hbm, ⟨9, _⟩ => ⟨S2000000, .i1⟩
  | .hbm, ⟨10, _⟩ => ⟨S_, .i32⟩
  | .hbm, ⟨11, _⟩ => ⟨S2000000, .i32⟩
  | .hbm, ⟨12, _⟩ => ⟨S2000000, .i32⟩
  | .hbm, ⟨13, _⟩ => ⟨S2000000, .i32⟩
  | .hbm, ⟨14, _⟩ => ⟨S2000000x1, .i32⟩
  | .hbm, ⟨15, _⟩ => ⟨S1, .i32⟩
  | .hbm, ⟨16, _⟩ => ⟨S_, .i32⟩
  | .hbm, ⟨17, _⟩ => ⟨S2000000x1, .i32⟩
  | .hbm, ⟨18, _⟩ => ⟨S2000000x1, .i1⟩
  | .hbm, ⟨19, _⟩ => ⟨S1x1, .i32⟩
  | .hbm, ⟨20, _⟩ => ⟨S2000000x1, .i32⟩
  | .hbm, ⟨21, _⟩ => ⟨S2000000x1, .i1⟩
  | .hbm, ⟨22, _⟩ => ⟨S2000000x1, .i1⟩
  | .hbm, ⟨23, _⟩ => ⟨S_, .i1⟩
  | .hbm, ⟨24, _⟩ => ⟨S2000000, .i1⟩
  | .hbm, ⟨25, _⟩ => ⟨S2000000x3, .f32⟩
  | .hbm, ⟨26, _⟩ => ⟨S2000000x3, .i1⟩
  | .hbm, ⟨27, _⟩ => ⟨S_, .f32⟩
  | .hbm, ⟨28, _⟩ => ⟨S2000000x3, .f32⟩
  | .hbm, ⟨29, _⟩ => ⟨S2000000x3, .f32⟩
  | .hbm, ⟨30, _⟩ => ⟨S_, .i32⟩
  | .hbm, ⟨31, _⟩ => ⟨S2000000, .i32⟩
  | .hbm, ⟨32, _⟩ => ⟨S2000000, .i1⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S2000000, .i32⟩
  | .hbm, ⟨37, _⟩ => ⟨S2000000x1, .i32⟩
  | .hbm, ⟨38, _⟩ => ⟨S1, .i32⟩
  | .hbm, ⟨39, _⟩ => ⟨S_, .i32⟩
  | .hbm, ⟨40, _⟩ => ⟨S2000000x1, .i32⟩
  | .hbm, ⟨41, _⟩ => ⟨S2000000x1, .i1⟩
  | .hbm, ⟨42, _⟩ => ⟨S1x1, .i32⟩
  | .hbm, ⟨43, _⟩ => ⟨S2000000x1, .i32⟩
  | .hbm, ⟨44, _⟩ => ⟨S2000000x1, .i1⟩
  | .hbm, ⟨45, _⟩ => ⟨S2000000x1, .i1⟩
  | .hbm, ⟨46, _⟩ => ⟨S_, .i1⟩
  | .hbm, ⟨47, _⟩ => ⟨S2000000, .i1⟩
  | .hbm, ⟨48, _⟩ => ⟨S2000000x3, .f32⟩
  | .hbm, ⟨49, _⟩ => ⟨S2000000x3, .i1⟩
  | .hbm, ⟨50, _⟩ => ⟨S_, .f32⟩
  | .hbm, ⟨51, _⟩ => ⟨S2000000x3, .f32⟩
  | .hbm, ⟨52, _⟩ => ⟨S2000000x3, .f32⟩
  | .hbm, ⟨53, _⟩ => ⟨S2000000x3, .f32⟩
  | .hbm, ⟨54, _⟩ => ⟨S2000000x3, .f32⟩
  | .hbm, ⟨55, _⟩ => ⟨S_, .f32⟩
  | .hbm, ⟨56, _⟩ => ⟨S2000000, .f32⟩
  | .hbm, ⟨57, _⟩ => ⟨S2000000, .f32⟩
  | .hbm, ⟨58, _⟩ => ⟨S500000x4, .f32⟩
  | .hbm, ⟨59, _⟩ => ⟨S1x1x1x32, .f32⟩
  | .hbm, ⟨60, _⟩ => ⟨S1x1x4x32, .f32⟩
  | .hbm, ⟨61, _⟩ => ⟨S1x128, .f32⟩
  | .hbm, ⟨62, _⟩ => ⟨S1x1x1x32, .f32⟩
  | .hbm, ⟨63, _⟩ => ⟨S1x1x4x32, .f32⟩
  | .hbm, ⟨64, _⟩ => ⟨S1x128, .f32⟩
  | .hbm, ⟨65, _⟩ => ⟨S500000x128, .f32⟩
  | .hbm, ⟨66, _⟩ => ⟨S2000000x32, .f32⟩
  | .local _ .vmem, ⟨0, _⟩ => ⟨S10000x4, .f32⟩
  | .local _ .vmem, ⟨1, _⟩ => ⟨S10000x4, .f32⟩
  | .local _ .vmem, ⟨2, _⟩ => ⟨S1x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_cst : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x3_0 : S2000000.BroadcastsInDim S2000000x3 (![0] : Fin 1 → Fin S2000000x3.rank)
  bcast_S_S2000000x3 : S_.BroadcastsInDim S2000000x3 (![] : Fin 0 → Fin S2000000x3.rank)
  reducesTo_S2000000x3_S2000000_d1 : S2000000x3.ReducesTo [1] S2000000
  shapeCasts_S2000000_S500000x4 : S2000000.ShapeCasts S500000x4
  shapeCasts_S1x32_S1x1x1x32 : S1x32.ShapeCasts S1x1x1x32
  bcast_S1x1x1x32_S1x1x4x32_0_1_2_3 : S1x1x1x32.BroadcastsInDim S1x1x4x32 (![0, 1, 2, 3] : Fin 4 → Fin S1x1x4x32.rank)
  shapeCasts_S1x1x4x32_S1x128 : S1x1x4x32.ShapeCasts S1x128
  inb_S10000x4_S10000x4_0_0 : ∀ a, (![0, 0] : Fin 2 → Nat) a + S10000x4.size a ≤ S10000x4.size a
  h_S10000x4 : 0 < S10000x4.numel
  shapeCasts_S10000x4_S10000x4 : S10000x4.ShapeCasts S10000x4
  inb_S1x128_S1x128_0_0 : ∀ a, (![0, 0] : Fin 2 → Nat) a + S1x128.size a ≤ S1x128.size a
  h_S1x128 : 0 < S1x128.numel
  slices_S10000x4_o0_0_S10000x1 : S10000x4.Slices ![0, 0] S10000x1
  shapeCasts_S10000x1_S10000x1 : S10000x1.ShapeCasts S10000x1
  broadcasts_S10000x1_S10000x32 : S10000x1.Broadcasts S10000x32
  slices_S10000x4_o0_1_S10000x1 : S10000x4.Slices ![0, 1] S10000x1
  slices_S10000x4_o0_2_S10000x1 : S10000x4.Slices ![0, 2] S10000x1
  slices_S10000x4_o0_3_S10000x1 : S10000x4.Slices ![0, 3] S10000x1
  concatenates_S10000x32_S10000x32_S10000x32_S10000x32_S10000x128_d1 : Shape.Concatenates [S10000x32, S10000x32, S10000x32, S10000x32] S10000x128 1
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  shapeCasts_S500000x128_S2000000x32 : S500000x128.ShapeCasts S2000000x32
  gather_S100000x3_S2000000x1_S2000000x3_1_0_n_n_0_1_13_wf : GatherDims.WF S100000x3 S2000000x1 S2000000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S500000x4.size a
  hwx0_0 : ∀ i : grid0.Coords, EltTy.bits .f32 = 32 ∨ (Rect.block (s := S500000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S500000x128.size a
  hwx0_3 : ∀ i : grid0.Coords, EltTy.bits .f32 = 32 ∨ (Rect.block (s := S500000x128) S10000x128.size (cc0_transform_3 i) (hinb0_3 i)).WholeWords (EltTy.packing .f32)

variable [Facts₀]

def gather_S100000x3_S2000000x1_S2000000x3_1_0_n_n_0_1_13 : GatherDims S100000x3 S2000000x1 S2000000x3 where
  offsetDims := [1]
  collapsedSliceDims := [0]
  operandBatchingDims := []
  startIndicesBatchingDims := []
  startIndexMap := [0]
  indexVectorDim := 1
  sliceSizes := ![1, 3]
  wf := gather_S100000x3_S2000000x1_S2000000x3_1_0_n_n_0_1_13_wf

abbrev win0_0 : Pipeline.Window sig grid0 :=
  Pipeline.Window.ofSpec (Memref.whole main_v8) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x3 : Shape := ⟨2, ![100000, 3]⟩
abbrev S1x2000000 : Shape := ⟨2, ![1, 2000000]⟩
abbrev S1x32 : Shape := ⟨2, ![1, 32]⟩
abbrev S_ : Shape := ⟨0, ![]⟩
abbrev S1x2000000x1 : Shape := ⟨3, ![1, 2000000, 1]⟩
abbrev S1x2000000x3 : Shape := ⟨3, ![1, 2000000, 3]⟩
abbrev S2000000x1 : Shape := ⟨2, ![2000000, 1]⟩
abbrev S2000000x32 : Shape := ⟨2, ![2000000, 32]⟩

abbrev nBuf : Space → Nat
  | .hbm => 65
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S1x2000000, .i32⟩
  | .hbm, ⟨2, _⟩ => ⟨S1x2000000, .i32⟩
  | .hbm, ⟨3, _⟩ => ⟨S1x32, .f32⟩
  | .hbm, ⟨4, _⟩ => ⟨S1x32, .f32⟩
  | .hbm, ⟨5, _⟩ => ⟨S_, .i32⟩
  | .hbm, ⟨6, _⟩ => ⟨S1x2000000, .i32⟩
  | .hbm, ⟨7, _⟩ => ⟨S1x2000000, .i1⟩
  | .hbm, ⟨8, _⟩ => ⟨S_, .i32⟩
  | .hbm, ⟨9, _⟩ => ⟨S1x2000000, .i32⟩
  | .hbm, ⟨10, _⟩ => ⟨S1x2000000, .i32⟩
  | .hbm, ⟨11, _⟩ => ⟨S1x2000000, .i32⟩
  | .hbm, ⟨12, _⟩ => ⟨S1x2000000x1, .i32⟩
  | .hbm, ⟨13, _⟩ => ⟨S1x2000000x3, .f32⟩
  | .hbm, ⟨14, _⟩ => ⟨S_, .i32⟩
  | .hbm, ⟨15, _⟩ => ⟨S1x2000000, .i32⟩
  | .hbm, ⟨16, _⟩ => ⟨S1x2000000, .i1⟩
  | .hbm, ⟨17, _⟩ => ⟨S_, .i32⟩
  | .hbm, ⟨18, _⟩ => ⟨S1x2000000, .i32⟩
  | .hbm, ⟨19, _⟩ => ⟨S1x2000000, .i32⟩
  | .hbm, ⟨20, _⟩ => ⟨S1x2000000, .i32⟩
  | .hbm, ⟨21, _⟩ => ⟨S1x2000000x1, .i32⟩
  | .hbm, ⟨22, _⟩ => ⟨S1x2000000x3, .f32⟩
  | .hbm, ⟨23, _⟩ => ⟨S1x2000000x3, .f32⟩
  | .hbm, ⟨24, _⟩ => ⟨S1x2000000x3, .f32⟩
  | .hbm, ⟨25, _⟩ => ⟨S_, .f32⟩
  | .hbm, ⟨26, _⟩ => ⟨S1x2000000, .f32⟩
  | .hbm, ⟨27, _⟩ => ⟨S1x2000000, .f32⟩
  | .hbm, ⟨28, _⟩ => ⟨S2000000x1, .f32⟩
  | .hbm, ⟨29, _⟩ => ⟨S_, .f32⟩
  | .hbm, ⟨30, _⟩ => ⟨S2000000x1, .f32⟩
  | .hbm, ⟨31, _⟩ => ⟨S2000000x1, .f32⟩
  | .hbm, ⟨32, _⟩ => ⟨S2000000x1, .f32⟩
  | .hbm, ⟨33, _⟩ => ⟨S2000000x1, .f32⟩
  | .hbm, ⟨34, _⟩ => ⟨S2000000x1, .f32⟩
  | .hbm, ⟨35, _⟩ => ⟨S_, .f32⟩
  | .hbm, ⟨36, _⟩ => ⟨S2000000x1, .f32⟩
  | .hbm, ⟨37, _⟩ => ⟨S2000000x1, .f32⟩
  | .hbm, ⟨38, _⟩ => ⟨S_, .f32⟩
  | .hbm, ⟨39, _⟩ => ⟨S2000000x1, .f32⟩
  | .hbm, ⟨40, _⟩ => ⟨S2000000x1, .f32⟩
  | .hbm, ⟨41, _⟩ => ⟨S2000000x1, .f32⟩
  | .hbm, ⟨42, _⟩ => ⟨S2000000x1, .f32⟩
  | .hbm, ⟨43, _⟩ => ⟨S_, .f32⟩
  | .hbm, ⟨44, _⟩ => ⟨S2000000x1, .f32⟩
  | .hbm, ⟨45, _⟩ => ⟨S2000000x1, .f32⟩
  | .hbm, ⟨46, _⟩ => ⟨S2000000x1, .f32⟩
  | .hbm, ⟨47, _⟩ => ⟨S2000000x1, .f32⟩
  | .hbm, ⟨48, _⟩ => ⟨S2000000x1, .f32⟩
  | .hbm, ⟨49, _⟩ => ⟨S_, .f32⟩
  | .hbm, ⟨50, _⟩ => ⟨S2000000x1, .f32⟩
  | .hbm, ⟨51, _⟩ => ⟨S2000000x1, .f32⟩
  | .hbm, ⟨52, _⟩ => ⟨S2000000x1, .f32⟩
  | .hbm, ⟨53, _⟩ => ⟨S1x32, .f32⟩
  | .hbm, ⟨54, _⟩ => ⟨S2000000x1, .f32⟩
  | .hbm, ⟨55, _⟩ => ⟨S2000000x1, .f32⟩
  | .hbm, ⟨56, _⟩ => ⟨S2000000x32, .f32⟩
  | .hbm, ⟨57, _⟩ => ⟨S2000000x32, .f32⟩
  | .hbm, ⟨58, _⟩ => ⟨S2000000x32, .f32⟩
  | .hbm, ⟨59, _⟩ => ⟨S2000000x32, .f32⟩
  | .hbm, ⟨60, _⟩ => ⟨S2000000x32, .f32⟩
  | .hbm, ⟨61, _⟩ => ⟨S2000000x32, .f32⟩
  | .hbm, ⟨62, _⟩ => ⟨S2000000x32, .f32⟩
  | .hbm, ⟨63, _⟩ => ⟨S2000000x32, .f32⟩
  | .hbm, ⟨64, _⟩ => ⟨S2000000x32, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]

class Facts₀ : Prop where
  bcast_S_S1x2000000 : S_.BroadcastsInDim S1x2000000 (![] : Fin 0 → Fin S1x2000000.rank)
  bcast_S1x2000000_S1x2000000x1_0_1 : S1x2000000.BroadcastsInDim S1x2000000x1 (![0, 1] : Fin 2 → Fin S1x2000000x1.rank)
  reducesTo_S1x2000000x3_S1x2000000_d2 : S1x2000000x3.ReducesTo [2] S1x2000000
  h_S_ : 0 < S_.numel
  shapeCasts_S1x2000000_S2000000x1 : S1x2000000.ShapeCasts S2000000x1
  bcast_S_S2000000x1 : S_.BroadcastsInDim S2000000x1 (![] : Fin 0 → Fin S2000000x1.rank)
  bcast_S2000000x1_S2000000x32_0_1 : S2000000x1.BroadcastsInDim S2000000x32 (![0, 1] : Fin 2 → Fin S2000000x32.rank)
  bcast_S1x32_S2000000x32_0_1 : S1x32.BroadcastsInDim S2000000x32 (![0, 1] : Fin 2 → Fin S2000000x32.rank)
  gather_S100000x3_S1x2000000x1_S1x2000000x3_2_0_n_n_0_2_13_wf : GatherDims.WF S100000x3 S1x2000000x1 S1x2000000x3 [2] [0] [] [0] [] 2 ![1, 3]

variable [Facts₀]

def gather_S100000x3_S1x2000000x1_S1x2000000x3_2_0_n_n_0_2_13 : GatherDims S100000x3 S1x2000000x1 S1x2000000x3 where
  offsetDims := [2]
  collapsedSliceDims := [0]
  operandBatchingDims := []
  startIndicesBatchingDims := []
  startIndexMap := [0]
  indexVectorDim := 2
  sliceSizes := ![1, 3]
  wf := gather_S100000x3_S1x2000000x1_S1x2000000x3_2_0_n_n_0_2_13_wf

class Facts : Prop extends Facts₀ where

variable [Facts]
-- ==== Proof.Spec.lean ====
/-
  The mathematics of the certificate, with no program in sight.

  An edge list over N = 100000 nodes: for edge e the two index words recv[e], send[e] name nodes, the
  distance r(e) is the Euclidean norm of the difference of the two nodes' coordinate rows, and the result
  element (e, b) is a Gaussian radial basis function of exp(-r) centred at mu[b] with width beta[b],
  times the polynomial cutoff phi(r / 5) = 1 - 6 u^5 + 15 u^4 - 10 u^3.

  An index word is read as jnp reads it: a negative word has N added (wrapIdx), and the gather then reads
  the word signed and clamped into [0, N - 1] (nodeRow).

  The two programs spell the arithmetic differently in three places, none of which needs finiteness:
  r * (1/5) against r / 5; (u^2 u^2) u against u (u^2 u^2); and 0 - x against -x.
-/
import Idealize.ShloMosaic.PureOps.Ideal.Laws
import Idealize.ShloMosaic.Lib.ValueIdx
import Idealize.ShloMosaic.Lib.IdealHost

noncomputable section

open scoped BigOperators

namespace Cert.RbfSpec

open Idealize.ShloMosaic Idealize.ShloMosaic.ValueIdx

/-! ## Index words -/

/-- jnp's reading of a possibly negative index word into a table of 100000 rows: a negative word has 100000 added. -/
def wrapIdx (v : BitVec 32) : BitVec 32 :=
  Scalar.select (IntOp.cmpi .slt v 0#32) (IntOp.addi v 100000#32) v

/-- The row a gather reads for the index word v: the wrapped word read signed and clamped into [0, 99999]. -/
def nodeRow (v : BitVec 32) : Fin 100000 := ⟨min (wrapIdx v).toInt.toNat (100000 - 1), by omega⟩

/-- The word names a row: 0 ≤ v < 100000 as signed integers, stated by the two comparison bits. -/
def InRange (v : BitVec 32) : Prop := IntOp.cmpi .sge v 0#32 = 1#1 ∧ IntOp.cmpi .slt v 100000#32 = 1#1

/-- A comparison bit that is set says the comparison holds. -/
theorem bool_of_ofBool_eq_one {b : Bool} (h : BitVec.ofBool b = 1#1) : b = true := by
  cases b
  · exact absurd h (by decide)
  · rfl

theorem inRange_toInt {v : BitVec 32} (h : InRange v) : 0 ≤ v.toInt ∧ v.toInt < 100000 := by
  obtain ⟨h0, h1⟩ := h
  unfold IntOp.cmpi at h0 h1
  have h0 := bool_of_ofBool_eq_one h0
  have h1 := bool_of_ofBool_eq_one h1
  rw [BitVec.sle_iff_toInt_le] at h0
  rw [BitVec.slt_iff_toInt_lt] at h1
  have e0 : (0#32 : BitVec 32).toInt = 0 := by decide
  have e1 : (100000#32 : BitVec 32).toInt = 100000 := by decide
  omega

/-- A word in range is not negative, so wrapping leaves it alone. -/
theorem wrapIdx_of_inRange {v : BitVec 32} (h : InRange v) : wrapIdx v = v := by
  have hv := inRange_toInt h
  unfold wrapIdx
  have : IntOp.cmpi .slt v 0#32 = 0#1 := by
    unfold IntOp.cmpi
    have hn : ¬ v.slt 0#32 = true := by
      rw [BitVec.slt_iff_toInt_lt]
      have e0 : (0#32 : BitVec 32).toInt = 0 := by decide
      omega
    simp only [hn]
    rfl
  rw [this]
  exact select_zero _ _

/-- The in-bounds test jnp.take makes on the wrapped word: 0 ≤ w and w ≤ 99999, both bits set. -/
theorem take_mask_of_inRange {v : BitVec 32} (h : InRange v) :
    IntOp.andi (IntOp.cmpi .sge (wrapIdx v) 0#32) (IntOp.cmpi .sle (wrapIdx v) 99999#32) = 1#1 := by
  have hv := inRange_toInt h
  rw [wrapIdx_of_inRange h]
  have h0 : IntOp.cmpi .sge v 0#32 = 1#1 := h.1
  have h1 : IntOp.cmpi .sle v 99999#32 = 1#1 := by
    unfold IntOp.cmpi
    have : v.sle 99999#32 = true := by
      rw [BitVec.sle_iff_toInt_le]
      have e1 : (99999#32 : BitVec 32).toInt = 99999 := by decide
      omega
    simp only [this]
    rfl
  rw [h0, h1]
  rfl

/-! ## The distance of an edge -/

/-- The Euclidean distance between the coordinate rows the two index words name: the square root of the zero
    word plus the sum over the three coordinates of the squared difference. -/
def edgeDist (x : (⟨2, ![100000, 3]⟩ : Shape).Idx → EReal) (vr vs : BitVec 32) : EReal :=
  Ideal.sqrt (Ideal.ofBits .f32 0x00000000#32
    + ∑ k : Fin 3, (x (ix2 (nodeRow vr) k) - x (ix2 (nodeRow vs) k)) * (x (ix2 (nodeRow vr) k) - x (ix2 (nodeRow vs) k)))

/-! ## The radial basis function, in the two spellings -/

/-- One output element as the kernel body computes it from the distance r, the centre mu and the width beta, with
    inv5 the kernel's reciprocal of the cutoff: u = r * inv5, the powers built as u2 = u u, u3 = u2 u, u4 = u2 u2,
    u5 = u4 u, and both negations written 0 - x. -/
def rbfMul (inv5 r mu beta : EReal) : EReal :=
  (Ideal.exp ((Ideal.ofBits .f32 0x00000000#32 - beta)
      * ((Ideal.exp (Ideal.ofBits .f32 0x00000000#32 - r) - mu) * (Ideal.exp (Ideal.ofBits .f32 0x00000000#32 - r) - mu))))
    * (Ideal.ofBits .f32 0x3F800000#32
        - Ideal.ofBits .f32 0x40C00000#32 * (((r * inv5) * (r * inv5)) * ((r * inv5) * (r * inv5)) * (r * inv5))
        + Ideal.ofBits .f32 0x41700000#32 * (((r * inv5) * (r * inv5)) * ((r * inv5) * (r * inv5)))
        - Ideal.ofBits .f32 0x41200000#32 * (((r * inv5) * (r * inv5)) * (r * inv5)))

/-- The same element as the reference computes it: u = r / 5 by the host's division, u^5 = u (u^2 u^2), and the
    negations written -x. -/
def rbfDiv (r mu beta : EReal) : EReal :=
  (Ideal.exp ((-beta) * ((Ideal.exp (-r) - mu) * (Ideal.exp (-r) - mu))))
    * (Ideal.ofBits .f32 0x3F800000#32
        - Ideal.ofBits .f32 0x40C00000#32
            * (Ideal.div r (Ideal.ofBits .f32 0x40A00000#32)
                * ((Ideal.div r (Ideal.ofBits .f32 0x40A00000#32) * Ideal.div r (Ideal.ofBits .f32 0x40A00000#32))
                    * (Ideal.div r (Ideal.ofBits .f32 0x40A00000#32) * Ideal.div r (Ideal.ofBits .f32 0x40A00000#32))))
        + Ideal.ofBits .f32 0x41700000#32
            * ((Ideal.div r (Ideal.ofBits .f32 0x40A00000#32) * Ideal.div r (Ideal.ofBits .f32 0x40A00000#32))
                * (Ideal.div r (Ideal.ofBits .f32 0x40A00000#32) * Ideal.div r (Ideal.ofBits .f32 0x40A00000#32)))
        - Ideal.ofBits .f32 0x41200000#32
            * ((Ideal.div r (Ideal.ofBits .f32 0x40A00000#32) * Ideal.div r (Ideal.ofBits .f32 0x40A00000#32))
                * Ideal.div r (Ideal.ofBits .f32 0x40A00000#32)))

/-- The word 0x40A00000 is the real number 5. -/
theorem ofBits_five : Ideal.ofBits .f32 0x40A00000#32 = ((5 : ℝ) : EReal) := by
  simp [Ideal.ofBits, Ideal.ieee, -EReal.coe_mul]; norm_num

/-- With the reciprocal read as the rational 1/5 the two spellings are one extended real: the host's quotient by 5 is
    the product with 1/5 on every extended real, products commute, and 0 - x = -x. -/
theorem rbfMul_eq_rbfDiv (r mu beta : EReal) : rbfMul (((1 / 5 : ℝ)) : EReal) r mu beta = rbfDiv r mu beta := by
  unfold rbfMul rbfDiv
  rw [ofBits_five, Ideal.div_coe (by norm_num : (5 : ℝ) ≠ 0), Ideal.ofBits_zero_f32, zero_sub, zero_sub]
  generalize r * (((1 / 5 : ℝ)) : EReal) = u
  rw [mul_comm (u * u * (u * u)) u]

/-! ## The whole result array -/

/-- The result array [2000000, 32] as one function of the five argument arrays: element (e, b) from edge e's two
    index words and basis function b's centre and width. -/
def G (x : (⟨2, ![100000, 3]⟩ : Shape).Idx → EReal) (recv send : (⟨2, ![1, 2000000]⟩ : Shape).Idx → BitVec 32)
    (mu beta : (⟨2, ![1, 32]⟩ : Shape).Idx → EReal) : (⟨2, ![2000000, 32]⟩ : Shape).Idx → EReal :=
  fun i => rbfDiv (edgeDist x (recv (ix2 0 ⟨(i 0).val, idx2_lt0 i⟩)) (send (ix2 0 ⟨(i 0).val, idx2_lt0 i⟩)))
    (mu (ix2 0 ⟨(i 1).val, idx2_lt1 i⟩)) (beta (ix2 0 ⟨(i 1).val, idx2_lt1 i⟩))

theorem G_apply (x : (⟨2, ![100000, 3]⟩ : Shape).Idx → EReal) (recv send : (⟨2, ![1, 2000000]⟩ : Shape).Idx → BitVec 32)
    (mu beta : (⟨2, ![1, 32]⟩ : Shape).Idx → EReal) (e : Fin 2000000) (b : Fin 32) :
    G x recv send mu beta (ix2 e b)
      = rbfDiv (edgeDist x (recv (ix2 0 e)) (send (ix2 0 e))) (mu (ix2 0 b)) (beta (ix2 0 b)) := rfl

end Cert.RbfSpec

end
-- ==== Proof.LibGatherRowsLead.lean ====
import Idealize.ShloMosaic.Lib.ValueIdx

/-!
# A row gather whose index array carries a leading unit axis, read at an index

jnp's `table[idx]` for a table of `N` rows of `D` columns and an index array `idx` of shape `[1, n]`
lowers to a gather over the indices reshaped `[1, n, 1]`: result element `(0, e, k)` is the table at row
"the `e`-th index word, read as a SIGNED integer and CLAMPED into `[0, N − 1]`", column `k`. The leading
axis and the edge axis are batch axes of the result, the last axis of the index array is the index vector
(one component, the row), and the column axis is the one offset axis.

The statement is for arbitrary extents `N`, `D`, `n` and any record of dimension numbers whose lists are the
ones named by the hypotheses, so it applies to a concrete record with `rfl` for every list.
-/

namespace Cert.LibGatherRowsLead

open Idealize.ShloMosaic Idealize.ShloMosaic.ValueIdx

/-- THE ROW GATHER AT `(0, e, k)`: the table at row "index word `(0, e, 0)`, read signed and clamped into
    `[0, N − 1]`", column `k`. On the row axis (collapsed, start-indexed) the operand coordinate is the clamped
    start; on the column axis (an offset axis, not start-indexed) it is the result's column. -/
theorem gather_rows_lead {α : Type} {N D n w : Nat}
    (d : GatherDims ⟨2, ![N, D]⟩ ⟨3, ![1, n, 1]⟩ ⟨3, ![1, n, D]⟩)
    (hoff : d.offsetDims = [2]) (hcoll : d.collapsedSliceDims = [0]) (hob : d.operandBatchingDims = [])
    (hsim : d.startIndexMap = [0]) (hivd : d.indexVectorDim = 2)
    (x : (⟨2, ![N, D]⟩ : Shape).Idx → α) (idx : IVec ⟨3, ![1, n, 1]⟩ w) (e : Fin n) (k : Fin D) (hN : 0 < N) :
    Host.gather d x idx (ix3 0 e k) = x (ix2 ⟨min (idx (ix3 0 e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element (0, e, k) is read at (0, e, 0) of the index array
    have hsi : ∀ c, (GatherDims.siIdx ⟨[2], [0], [], sb, [0], 2, ss, wf⟩ (ix3 0 e k) c : (⟨3, ![1, n, 1]⟩ : Shape).Idx)
        = ix3 0 e 0 := by
      intro c
      funext b
      apply Fin.ext
      match b with
      | ⟨0, _⟩ => rfl
      | ⟨1, _⟩ => rfl
      | ⟨2, _⟩ =>
        have := c.isLt
        simp only [List.length_singleton] at this
        show c.val = 0
        omega
    show min (idx (GatherDims.siIdx _ _ _)).toInt.toNat (N - ss 0) + 0 + 0 = min (idx (ix3 0 e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

end Cert.LibGatherRowsLead
-- ==== Proof.RefValue.lean ====
/-
  The reference's result array is the specification G of the five argument arrays.

  Read one operation at a time: the index word of edge e is wrapped as jnp wraps it; the gather over the indices
  reshaped [1, n, 1] reads the table at the row that word names, signed and clamped; the squared differences of the
  two rows are summed over the three coordinates from the zero word and rooted; the [1, n] row of distances is
  reshaped to a column [n, 1]; and the rest is pointwise in the distance, the centre and the width.
-/
import proofs.«429030_j20272245637563_3_alg».proof.Proof.Gen.ReferenceIdeal.Read
import proofs.«429030_j20272245637563_3_alg».proof.Proof.Spec
import proofs.«429030_j20272245637563_3_alg».proof.Proof.LibGatherRowsLead
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.RbfSpec

/-- The receiver word of edge e after jnp's wrap of a negative index. -/
theorem wrapped_recv (x1 : IVec S1x2000000 32) (e : Fin 2000000) :
    val_main_v4 (F := Ideal) x1 (ix2 0 e) = wrapIdx (x1 (ix2 0 e)) := by
  rw [val_main_v4_apply, val_main_v1_apply, val_main_v3_apply, val_main_v0_apply, val_main_c_apply, val_main_v2_apply,
    val_main_c_0_apply]
  rfl

/-- The sender word of edge e after the wrap. -/
theorem wrapped_send (x2 : IVec S1x2000000 32) (e : Fin 2000000) :
    val_main_v11 (F := Ideal) x2 (ix2 0 e) = wrapIdx (x2 (ix2 0 e)) := by
  rw [val_main_v11_apply, val_main_v8_apply, val_main_v10_apply, val_main_v7_apply, val_main_c_1_apply, val_main_v9_apply,
    val_main_c_2_apply]
  rfl

/-- The index array [1, n, 1] at (0, e, 0) is the wrapped word of edge e. -/
theorem idx_recv (e : Fin 2000000) : idx_main_v5 (ix3 0 e 0) = ix2 0 e := by
  funext a; match a with | ⟨0, _⟩ => rfl | ⟨1, _⟩ => rfl
theorem idx_send (e : Fin 2000000) : idx_main_v12 (ix3 0 e 0) = ix2 0 e := by
  funext a; match a with | ⟨0, _⟩ => rfl | ⟨1, _⟩ => rfl

/-- The gathered receiver row of edge e, coordinate k: the table at the row the receiver word names. -/
theorem recv_row (x0 : FVec Ideal S100000x3 .f32) (x1 : IVec S1x2000000 32) (e : Fin 2000000) (k : Fin 3) :
    val_main_v6 (F := Ideal) x0 x1 (ix3 0 e k) = x0 (ix2 (nodeRow (x1 (ix2 0 e))) k) := by
  have hw : val_main_v5 (F := Ideal) x1 (ix3 0 e 0) = wrapIdx (x1 (ix2 0 e)) := by
    rw [val_main_v5_apply, idx_recv, wrapped_recv]
  unfold val_main_v6
  rw [Cert.LibGatherRowsLead.gather_rows_lead _ rfl rfl rfl rfl rfl x0 _ e k (by decide)]
  refine congrArg x0 (congrArg (fun r : Fin 100000 => ix2 r k) (Fin.ext ?_))
  show min (BitVec.toInt (val_main_v5 (F := Ideal) x1 (ix3 0 e 0))).toNat (100000 - 1)
    = min (wrapIdx (x1 (ix2 0 e))).toInt.toNat (100000 - 1)
  rw [hw]

/-- The gathered sender row of edge e, coordinate k. -/
theorem send_row (x0 : FVec Ideal S100000x3 .f32) (x2 : IVec S1x2000000 32) (e : Fin 2000000) (k : Fin 3) :
    val_main_v13 (F := Ideal) x0 x2 (ix3 0 e k) = x0 (ix2 (nodeRow (x2 (ix2 0 e))) k) := by
  have hw : val_main_v12 (F := Ideal) x2 (ix3 0 e 0) = wrapIdx (x2 (ix2 0 e)) := by
    rw [val_main_v12_apply, idx_send, wrapped_send]
  unfold val_main_v13
  rw [Cert.LibGatherRowsLead.gather_rows_lead _ rfl rfl rfl rfl rfl x0 _ e k (by decide)]
  refine congrArg x0 (congrArg (fun r : Fin 100000 => ix2 r k) (Fin.ext ?_))
  show min (BitVec.toInt (val_main_v12 (F := Ideal) x2 (ix3 0 e 0))).toNat (100000 - 1)
    = min (wrapIdx (x2 (ix2 0 e))).toInt.toNat (100000 - 1)
  rw [hw]

/-- The summed axis' index (0, e, k). -/
theorem idx_sum (e : Fin 2000000) (k : Fin 3) : idx_main_v16 (ix2 0 e) k = ix3 0 e k := by
  funext a; match a with | ⟨0, _⟩ => rfl | ⟨1, _⟩ => rfl | ⟨2, _⟩ => rfl

/-- The row of distances at edge e. -/
theorem dist_row (x0 : FVec Ideal S100000x3 .f32) (x1 x2 : IVec S1x2000000 32) (e : Fin 2000000) :
    val_main_v17 (F := Ideal) x0 x1 x2 (ix2 0 e) = edgeDist x0 (x1 (ix2 0 e)) (x2 (ix2 0 e)) := by
  rw [val_main_v17_apply, val_main_v16_apply, val_main_cst_apply]
  unfold edgeDist
  rw [Ideal.hostUnary_sqrt_def, Ideal.ofBits_def]
  congr 2
  refine Finset.sum_congr rfl fun k _ => ?_
  rw [val_main_v15_apply, val_main_v14_apply, idx_sum, recv_row, send_row, Ideal.mulf_def, Ideal.subf_def]

/-- The column of distances [n, 1] at (e, 0) is the row's element e. -/
theorem idx_col (e : Fin 2000000) : idx_main_v18 (ix2 e 0) = ix2 0 e := by
  funext a
  match a with
  | ⟨0, _⟩ => rfl
  | ⟨1, _⟩ =>
    apply Fin.ext
    show (e.val * 1 + 0) % 2000000 = e.val
    have := e.isLt
    omega

theorem dist_col (x0 : FVec Ideal S100000x3 .f32) (x1 x2 : IVec S1x2000000 32) (e : Fin 2000000) :
    val_main_v18 (F := Ideal) x0 x1 x2 (ix2 e 0) = edgeDist x0 (x1 (ix2 0 e)) (x2 (ix2 0 e)) := by
  rw [val_main_v18_apply, idx_col, dist_row]

/-- Where the broadcasts read: a column [n, 1] at (e, 0), a row [1, 32] at (0, b). -/
theorem idx_bcast_col (e : Fin 2000000) (b : Fin 32) : idx_main_v41 (ix2 e b) = ix2 e 0 := by
  funext a; match a with | ⟨0, _⟩ => rfl | ⟨1, _⟩ => rfl
theorem idx_bcast_col' (e : Fin 2000000) (b : Fin 32) : idx_main_v48 (ix2 e b) = ix2 e 0 := by
  funext a; match a with | ⟨0, _⟩ => rfl | ⟨1, _⟩ => rfl
theorem idx_bcast_mu (e : Fin 2000000) (b : Fin 32) : idx_main_v42 (ix2 e b) = ix2 0 b := by
  funext a; match a with | ⟨0, _⟩ => rfl | ⟨1, _⟩ => rfl
theorem idx_bcast_beta (e : Fin 2000000) (b : Fin 32) : idx_main_v45 (ix2 e b) = ix2 0 b := by
  funext a; match a with | ⟨0, _⟩ => rfl | ⟨1, _⟩ => rfl

/-- The quotient u = r / 5 of edge e. -/
theorem quot_col (x0 : FVec Ideal S100000x3 .f32) (x1 x2 : IVec S1x2000000 32) (e : Fin 2000000) :
    val_main_v20 (F := Ideal) x0 x1 x2 (ix2 e 0)
      = Ideal.div (edgeDist x0 (x1 (ix2 0 e)) (x2 (ix2 0 e))) (Ideal.ofBits .f32 0x40A00000#32) := by
  rw [val_main_v20_apply, dist_col, val_main_v19_apply, val_main_cst_3_apply, Ideal.hostDivf_def, Ideal.ofBits_def]

/-- THE REFERENCE IS THE SPECIFICATION. -/
theorem ref_eq (x0 : FVec Ideal S100000x3 .f32) (x1 x2 : IVec S1x2000000 32) (x3 x4 : FVec Ideal S1x32 .f32) :
    val_main_v49 (F := Ideal) x0 x1 x2 x3 x4 = G x0 x1 x2 x3 x4 := by
  funext i
  obtain ⟨e, b, rfl⟩ : ∃ (e : Fin 2000000) (b : Fin 32), i = ix2 e b := ⟨i 0, i 1, eq_ix2 i⟩
  rw [G_apply]
  unfold rbfDiv
  rw [val_main_v49_apply, val_main_v47_apply, val_main_v46_apply, val_main_v45_apply, val_main_v38_apply, val_main_v44_apply,
    val_main_v43_apply, val_main_v41_apply, val_main_v40_apply, val_main_v39_apply, val_main_v42_apply, val_main_v48_apply,
    val_main_v37_apply, val_main_v32_apply, val_main_v27_apply, val_main_v26_apply, val_main_cst_5_apply, val_main_v25_apply,
    val_main_v24_apply, val_main_cst_4_apply, val_main_v23_apply, val_main_v22_apply, val_main_v21_apply,
    val_main_v31_apply, val_main_v30_apply, val_main_cst_6_apply, val_main_v29_apply, val_main_v28_apply,
    val_main_v36_apply, val_main_v35_apply, val_main_cst_7_apply, val_main_v34_apply, val_main_v33_apply]
  simp only [idx_bcast_col, idx_bcast_col', idx_bcast_mu, idx_bcast_beta, quot_col, dist_col, Ideal.mulf_def, Ideal.subf_def,
    Ideal.addf_def, Ideal.hostUnary_exp_def, Ideal.hostNegf_def, Ideal.negf_def, Ideal.ofBits_def]

end Cert.ReferenceIdeal.RefValue

end
-- ==== Proof.PreDecode.lean ====
/-
  What the precondition says of the index words.

  The printed precondition is a conjunction of five `jnp.all`s: three say that the float inputs are finite, the last
  two that every receiver word and every sender word v satisfies 0 ≤ v and v < 100000 as signed integers. Each
  `jnp.all` is a reduction by `and` from the constant 1 into a result of one index, so when the whole is 1 every
  element of its operand is 1; an element of the operand is the `and` of the two comparison bits.
-/
import proofs.«429030_j20272245637563_3_alg».proof.Proof.Gen.Pre_finite_inputs
import proofs.«429030_j20272245637563_3_alg».proof.Proof.Spec
import Idealize.ShloMosaic.Lib.ReduceAll
import Idealize.ShloMosaic.Lib.ValueIdx

noncomputable section

namespace Cert.Pre_finite_inputs.Decode

open Cert.Pre_finite_inputs Cert.Pre_finite_inputs.Gen Idealize.ShloMosaic Idealize.ShloMosaic.ValueIdx
open Cert.RbfSpec

/-- The scalar shape has one index. -/
instance : Subsingleton S_.Idx := ⟨fun a b => funext fun d => d.elim0⟩

variable {F : FTy → Type} [FloatOps F]

/-- Under the precondition every receiver word and every sender word names a row of the table. -/
theorem inRange_of_pre (a0 : FVec F S100000x3 .f32) (a1 a2 : IVec S1x2000000 32) (a3 a4 : FVec F S1x32 .f32)
    (h : fn (F := F) a0 a1 a2 a3 a4 = fun _ => 1#1) (e : Fin 2000000) :
    InRange (a1 (ix2 0 e)) ∧ InRange (a2 (ix2 0 e)) := by
  have h0 := congrFun h ix0
  dsimp only [fn, fn_part1] at h0
  obtain ⟨h20, h26⟩ := IntOp.andi_eq_one.1 h0
  obtain ⟨_, h19⟩ := IntOp.andi_eq_one.1 h20
  have r1 := Host.reduce_andi_all _ _ _ _ ix0 h19 (ix2 0 e)
  have r2 := Host.reduce_andi_all _ _ _ _ ix0 h26 (ix2 0 e)
  obtain ⟨r1a, r1b⟩ := IntOp.andi_eq_one.1 r1
  obtain ⟨r2a, r2b⟩ := IntOp.andi_eq_one.1 r2
  exact ⟨⟨r1a, r1b⟩, ⟨r2a, r2b⟩⟩

end Cert.Pre_finite_inputs.Decode

end
-- ==== Proof.HostDefs.lean ====
/-
  The host computations before the kernel's region, as functions of arrays.

  The host flattens the two index rows, takes the receivers' and the senders' coordinate rows out of the table the way
  jnp.take does — the wrapped index word gathered (signed, clamped), the row kept where the wrapped word passes the
  test 0 ≤ w ≤ 99999 and filled with the not-a-number word where it does not —, subtracts, squares, sums the three
  coordinates from the zero word, takes the root, and lays the 2000000 distances out four to a row; the centres and
  the widths [1, 32] are each tiled four times along the lanes to [1, 128].
-/
import proofs.«429030_j20272245637563_3_alg».proof.Proof.Gen.KernelIdeal

noncomputable section

namespace Cert.KernelIdeal.HostValue

open Cert.KernelIdeal Cert.KernelIdeal.Gen Idealize.ShloMosaic

variable {F : FTy → Type} [FloatOps F]

/-- The flat index words after jnp's wrap: a negative word has 100000 added. -/
def wrapped (idx : IVec S2000000 32) : IVec S2000000 32 :=
  select (cmpi .slt idx (broadcastInDim S2000000 ![] bcast_S_S2000000 (constantI S_ 32 0#32)))
    (addi idx (broadcastInDim S2000000 ![] bcast_S_S2000000 (constantI S_ 32 100000#32))) idx

/-- The wrapped words as the column [n, 1] the gather takes. -/
def idxCol (idx : IVec S2000000 32) : IVec S2000000x1 32 :=
  broadcastInDim S2000000x1 ![0] bcast_S2000000_S2000000x1_0 (wrapped idx)

/-- jnp.take's in-bounds test per edge: 0 ≤ w and w ≤ 99999, both bits, reduced by and over the column's one entry. -/
def inBounds (idx : IVec S2000000 32) : IVec S2000000 1 :=
  Host.reduce IntOp.andi
    (andi (cmpi .sge (idxCol idx) (broadcastInDim S2000000x1 ![] bcast_S_S2000000x1 (constantI S_ 32 0#32)))
      (cmpi .sle (idxCol idx) (broadcastInDim S2000000x1 ![0, 1] bcast_S1x1_S2000000x1_0_1
        (broadcastInDim S1x1 ![1] bcast_S1_S1x1_1 (constantI S1 32 99999#32)))))
    (constantI S_ 1 1#1) reducesTo_S2000000x1_S2000000_d1 h_S_

/-- jnp.take of the table's rows: the gathered row where the test passes, the not-a-number word where it fails. -/
def takeRows (x : FVec F S100000x3 .f32) (idx : IVec S2000000 32) : FVec F S2000000x3 .f32 :=
  select (broadcastInDim S2000000x3 ![0] bcast_S2000000_S2000000x3_0 (inBounds idx))
    (Host.gather gather_S100000x3_S2000000x1_S2000000x3_1_0_n_n_0_1_13 x (idxCol idx))
    (broadcastInDim S2000000x3 ![] bcast_S_S2000000x3 (constant S_ .f32 0x7FC00000#32))

/-- The distances of the 2000000 edges, four to a row. -/
def packedDist (x : FVec F S100000x3 .f32) (a1 a2 : IVec S1x2000000 32) : FVec F S500000x4 .f32 :=
  shapeCast S500000x4
    (Host.sqrt (Host.reduceAdd
      (mulf
        (subf (takeRows x (shapeCast S2000000 a1 shapeCasts_S1x2000000_S2000000))
          (takeRows x (shapeCast S2000000 a2 shapeCasts_S1x2000000_S2000000)))
        (subf (takeRows x (shapeCast S2000000 a1 shapeCasts_S1x2000000_S2000000))
          (takeRows x (shapeCast S2000000 a2 shapeCasts_S1x2000000_S2000000))))
      (constant S_ .f32 0x00000000#32) reducesTo_S2000000x3_S2000000_d1 h_S_))
    shapeCasts_S2000000_S500000x4

/-- A row [1, 32] tiled four times along the lanes. -/
def tiled (y : FVec F S1x32 .f32) : FVec F S1x128 .f32 :=
  shapeCast S1x128
    (broadcastInDim S1x1x4x32 ![0, 1, 2, 3] bcast_S1x1x1x32_S1x1x4x32_0_1_2_3 (shapeCast S1x1x1x32 y shapeCasts_S1x32_S1x1x1x32))
    shapeCasts_S1x1x4x32_S1x128

end Cert.KernelIdeal.HostValue

end
-- ==== Proof.HostEntry.lean ====
/-
  What the kernel's region finds in its three input arrays: the host operations before the region, composed, are the
  packed distances of the edges and the tiled centres and widths, as functions of the program's arguments.
-/
import proofs.«429030_j20272245637563_3_alg».proof.Proof.Gen.KernelIdeal.Frame
import proofs.«429030_j20272245637563_3_alg».proof.Proof.HostDefs
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo

variable {F : FTy → Type} [FloatOps F] [Named F]

/-- Contents written through a typed reference and read back through it are the contents. -/
theorem ofBuf_toBuf {Val : EltTy → Type} {T : BufTy} (x : TRef sig T) (v : T.Contents Val) : x.ofBuf (x.toBuf v) = v := by
  unfold TRef.ofBuf TRef.toBuf
  simp

-- the in-bounds test is a reduction over 2000000 entries: it is compared argument by argument, never opened
attribute [local irreducible] Host.reduce

variable (m : (ℓ : Loc nD τ sig) → Buf (Elt F) ℓ)

/-- The region finds the tiled centres in its second window's array. -/
theorem V_mu (c : Dev nD) : V m c main_v11 = tiled (m ((c : Thread nD τ).loc main_arg3)) := by
  dsimp only [V, V0]
  simp only [hostOps0, hostOps0_1, hostOps0_2, hostOps0_3, List.flatten_cons, List.flatten_nil, List.append_nil,
    List.cons_append, List.nil_append]
  after_results
  rfl

/-- The region finds the tiled widths in its third window's array. -/
theorem V_beta (c : Dev nD) : V m c main_v14 = tiled (m ((c : Thread nD τ).loc main_arg4)) := by
  dsimp only [V, V0]
  simp only [hostOps0, hostOps0_1, hostOps0_2, hostOps0_3, List.flatten_cons, List.flatten_nil, List.append_nil,
    List.cons_append, List.nil_append]
  after_results
  rfl

set_option maxRecDepth 65536 in
set_option maxHeartbeats 4000000 in
/-- The region finds the packed distances in its first window's array. -/
theorem V_dist (c : Dev nD) : V m c main_v8
    = packedDist (m ((c : Thread nD τ).loc main_arg0)) (m ((c : Thread nD τ).loc main_arg1)) (m ((c : Thread nD τ).loc main_arg2)) := by
  dsimp only [V, V0]
  simp only [hostOps0, hostOps0_1, hostOps0_2, hostOps0_3, List.flatten_cons, List.flatten_nil, List.append_nil,
    List.cons_append, List.nil_append]
  after_results_simp
  simp only [ofBuf_toBuf]
  rfl

end Cert.KernelIdeal.HostValue

end
-- ==== Proof.LibScatterGatherRows.lean ====
import Idealize.ShloMosaic.Lib.ValueIdx
import Idealize.ShloMosaic.PureOps.Contract
import Mathlib.Algebra.BigOperators.Group.Finset.Basic
import Mathlib.Algebra.BigOperators.Group.Finset.Piecewise

/-!
# Row gather and row scatter-add, read at an index

Two array operations over a table of `N` rows, indexed by a column of `n` integer words:

* the ROW GATHER `table[idx]`: result row `e` is the table's row named by the `e`-th index word. The
  word is read as a SIGNED integer and CLAMPED into `[0, N − 1]` (a negative word reads row `0`, a word
  past the end reads the last row); the column is kept. `gather_rows` states this for an `N × D` table at
  one element `(e, k)`, for any element type.
* the ROW SCATTER-ADD (a segment sum, `table.at[idx].add(updates)`) over the extended reals: result
  element `(v, k)` is the operand's element plus the sum of the update elements `(e, k)` over exactly
  those update rows `e` whose index word, read SIGNED and NOT clamped, EQUALS `v`. An update row whose
  index is negative or at least `N` lands nowhere and is dropped. `resultIdx_rows` says where one update
  element lands; `hostScatterAdd_rows` / `scatterAdd_rows` give the sum for an `N × D` operand, and
  `resultIdx_vec` / `hostScatterAdd_vec` / `scatterAdd_vec` the same for a vector of `N` elements
  (updates a vector of `n` elements).

Every statement is for arbitrary extents `N`, `D`, `n` and any record of dimension numbers whose lists
are the ones named by the hypotheses (one collapsed / inserted row axis `0`, the index vector on axis
`1` of the `n × 1` index column, the column axis `1` an offset / window axis), so each applies to a
concrete record with `rfl` for every list.
-/

open scoped BigOperators

namespace Cert.LibScatterGatherRows

open Idealize.ShloMosaic Idealize.ShloMosaic.ValueIdx

/-! ## The row gather -/

/-- THE ROW GATHER AT `(e, k)`: the table at row "index word `e`, read signed and clamped into
    `[0, N − 1]`", column `k`. On the row axis (collapsed, start-indexed) the operand coordinate is the
    clamped start; on the column axis (an offset axis, not start-indexed) it is the result's column. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element (e, k) is read at (e, 0) of the index column
    have hsi : ∀ c, (GatherDims.siIdx ⟨[1], [0], [], sb, [0], 1, ss, wf⟩ (ix2 e k) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

/-- The row gather of a table of extended reals (any float format's ideal values), at `(e, k)`. -/
theorem gather_rows_ideal {φ : FTy} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : FVec Ideal ⟨2, ![N, D]⟩ φ) (idx : IVec ⟨2, ![n, 1]⟩ w) (e : Fin n) (k : Fin D) (hN : 0 < N) :
    (Host.gather d x idx : FVec Ideal ⟨2, ![n, D]⟩ φ) (ix2 e k)
      = x (ix2 ⟨min (idx (ix2 e 0)).toInt.toNat (N - 1), by omega⟩ k) :=
  gather_rows d hoff hcoll hob hsim hivd x idx e k hN

/-! ## The row scatter-add over an `N × D` operand -/

/-- WHERE AN UPDATE ELEMENT LANDS: update element `(e, k')` lands on operand element `(v, k)` exactly when
    the `e`-th index word, read signed, is `v`, and the columns agree. (On the row axis the landing
    coordinate is the unclamped start plus window coordinate 0; on the column axis it is start 0 plus the
    update's column; a landing point outside the operand is no point at all.) -/
theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd
  -- the start and the window coordinate on each of the two operand axes
  have hs0 : ScatterDims.start ⟨[1], [0], [0], 1, wf⟩ (ix2 e k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0] : List (Fin 2)) by decide) ha
  have hs1 : ScatterDims.start ⟨[1], [0], [0], 1, wf⟩ (ix2 e k') idx 1 = 0 := by
    unfold ScatterDims.start
    split
    · next ha => exact absurd ha (show (1 : Fin 2) ∉ ([0] : List (Fin 2)) by decide)
    · rfl
  have hw0 : ScatterDims.window ⟨[1], [0], [0], 1, wf⟩ (ix2 e k') 0 = 0 := by
    unfold ScatterDims.window
    split
    · next ha => exact absurd ha (show (0 : Fin 2) ∉ ([1] : List (Fin 2)) by decide)
    · rfl
  have hw1 : ScatterDims.window ⟨[1], [0], [0], 1, wf⟩ (ix2 e k') 1 = k'.val := by
    unfold ScatterDims.window
    split
    · rfl
    · next ha => exact absurd (show (1 : Fin 2) ∈ ([1] : List (Fin 2)) by decide) ha
  unfold ScatterDims.resultIdx?
  split
  · next h =>
    -- the landing point is inside the operand: compare it with (v, k) coordinate by coordinate
    have h0 := h 0
    rw [hs0, hw0] at h0
    constructor
    · intro hf
      have hf' := Option.some.inj hf
      have e0 : (ScatterDims.start ⟨[1], [0], [0], 1, wf⟩ (ix2 e k') idx 0
          + (ScatterDims.window ⟨[1], [0], [0], 1, wf⟩ (ix2 e k') 0 : ℕ)).toNat = v.val :=
        congrArg (fun f : (⟨2, ![N, D]⟩ : Shape).Idx => (f 0).val) hf'
      have e1 : (ScatterDims.start ⟨[1], [0], [0], 1, wf⟩ (ix2 e k') idx 1
          + (ScatterDims.window ⟨[1], [0], [0], 1, wf⟩ (ix2 e k') 1 : ℕ)).toNat = k.val :=
        congrArg (fun f : (⟨2, ![N, D]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[1], [0], [0], 1, wf⟩ (ix2 e k') idx 0
          + (ScatterDims.window ⟨[1], [0], [0], 1, wf⟩ (ix2 e k') 0 : ℕ)).toNat = v.val
        rw [hs0, hw0]; omega
      | ⟨1, _⟩ =>
        show (ScatterDims.start ⟨[1], [0], [0], 1, wf⟩ (ix2 e k') idx 1
          + (ScatterDims.window ⟨[1], [0], [0], 1, wf⟩ (ix2 e k') 1 : ℕ)).toNat = k'.val
        rw [hs1, hw1]; omega
  · next h =>
    -- the landing point is outside the operand: then the index word is no row of it
    constructor
    · intro hf; exact absurd hf (by simp)
    · rintro ⟨hv, rfl⟩
      exfalso
      apply h
      intro a
      match a with
      | ⟨0, _⟩ =>
        show 0 ≤ ScatterDims.start ⟨[1], [0], [0], 1, wf⟩ (ix2 e k') idx 0
            + (ScatterDims.window ⟨[1], [0], [0], 1, wf⟩ (ix2 e k') 0 : ℕ)
          ∧ ScatterDims.start ⟨[1], [0], [0], 1, wf⟩ (ix2 e k') idx 0
            + (ScatterDims.window ⟨[1], [0], [0], 1, wf⟩ (ix2 e k') 0 : ℕ) < (N : ℤ)
        rw [hs0, hw0]
        have := v.isLt
        omega
      | ⟨1, _⟩ =>
        show 0 ≤ ScatterDims.start ⟨[1], [0], [0], 1, wf⟩ (ix2 e k') idx 1
            + (ScatterDims.window ⟨[1], [0], [0], 1, wf⟩ (ix2 e k') 1 : ℕ)
          ∧ ScatterDims.start ⟨[1], [0], [0], 1, wf⟩ (ix2 e k') idx 1
            + (ScatterDims.window ⟨[1], [0], [0], 1, wf⟩ (ix2 e k') 1 : ℕ) < (D : ℤ)
        rw [hs1, hw1]
        have := k'.isLt
        omega

/-- THE ROW SCATTER-ADD AT `(v, k)`: the operand's element plus the sum, over the update rows `e` whose
    index word read signed equals `v`, of the update element `(e, k)`. The sum over all update elements
    that land on `(v, k)` splits into rows and columns; in each row only column `k` can land there. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (v : Fin N) (k : Fin D) :
    Ideal.hostScatterAdd d x idx upd (ix2 v k)
      = x (ix2 v k)
        + ∑ e ∈ Finset.univ.filter (fun e : Fin n => (idx (ix2 e 0)).toInt = (v.val : ℤ)), upd (ix2 e k) := by
  classical
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ)
  · simp [hP]
  · simp [hP]

/-- The same for the scatter-add operation at the ideal instance (any float format). -/
theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  unfold Host.scatterAdd
  rw [Ideal.hostScatterAdd_def]
  exact hostScatterAdd_rows d huw hiw hsd hivd x idx upd v k

/-! ## The scatter-add over a vector of `N` elements -/

/-- A rank-1 index set is its one coordinate range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) :=
  (Equiv.sum_comp (idxEquiv1 (n := n)).symm f).symm

/-- WHERE AN UPDATE ELEMENT LANDS, for a vector: update element `e` lands on operand element `v` exactly when
    the `e`-th index word, read signed, is `v`. -/
theorem resultIdx_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e 0)).toInt = (v.val : ℤ) := by
  obtain ⟨uw, iw, sd, ivd, wf⟩ := d
  simp only at huw hiw hsd hivd
  subst huw hiw hsd hivd
  have hs0 : ScatterDims.start ⟨[], [0], [0], 1, wf⟩ (ix1 e) idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 1) ∈ ([0] : List (Fin 1)) by decide) ha
  have hw0 : ScatterDims.window ⟨[], [0], [0], 1, wf⟩ (ix1 e) 0 = 0 := by
    unfold ScatterDims.window
    split
    · next ha => exact absurd ha (show (0 : Fin 1) ∉ ([] : List (Fin 1)) by decide)
    · rfl
  unfold ScatterDims.resultIdx?
  split
  · next h =>
    have h0 := h 0
    rw [hs0, hw0] at h0
    constructor
    · intro hf
      have hf' := Option.some.inj hf
      have e0 : (ScatterDims.start ⟨[], [0], [0], 1, wf⟩ (ix1 e) idx 0
          + (ScatterDims.window ⟨[], [0], [0], 1, wf⟩ (ix1 e) 0 : ℕ)).toNat = v.val :=
        congrArg (fun f : (⟨1, ![N]⟩ : Shape).Idx => (f 0).val) hf'
      rw [hs0, hw0] at e0
      omega
    · intro hv
      congr 1
      funext a
      apply Fin.ext
      match a with
      | ⟨0, _⟩ =>
        show (ScatterDims.start ⟨[], [0], [0], 1, wf⟩ (ix1 e) idx 0
          + (ScatterDims.window ⟨[], [0], [0], 1, wf⟩ (ix1 e) 0 : ℕ)).toNat = v.val
        rw [hs0, hw0]; omega
  · next h =>
    constructor
    · intro hf; exact absurd hf (by simp)
    · intro hv
      exfalso
      apply h
      intro a
      match a with
      | ⟨0, _⟩ =>
        show 0 ≤ ScatterDims.start ⟨[], [0], [0], 1, wf⟩ (ix1 e) idx 0
            + (ScatterDims.window ⟨[], [0], [0], 1, wf⟩ (ix1 e) 0 : ℕ)
          ∧ ScatterDims.start ⟨[], [0], [0], 1, wf⟩ (ix1 e) idx 0
            + (ScatterDims.window ⟨[], [0], [0], 1, wf⟩ (ix1 e) 0 : ℕ) < (N : ℤ)
        rw [hs0, hw0]
        have := v.isLt
        omega

/-- THE VECTOR SCATTER-ADD AT `v` (a segment sum): the operand's element plus the sum of the update elements
    `e` whose index word read signed equals `v`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (v : Fin N) :
    Ideal.hostScatterAdd d x idx upd (ix1 v)
      = x (ix1 v)
        + ∑ e ∈ Finset.univ.filter (fun e : Fin n => (idx (ix2 e 0)).toInt = (v.val : ℤ)), upd (ix1 e) := by
  classical
  unfold Ideal.hostScatterAdd
  congr 1
  rw [Finset.sum_filter, sum_idx1, Finset.sum_filter]
  refine Finset.sum_congr rfl (fun e _ => ?_)
  simp only [resultIdx_vec d huw hiw hsd hivd]

/-- The same for the scatter-add operation at the ideal instance (any float format). -/
theorem scatterAdd_vec {φ : FTy} {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w)
    (upd : FVec Ideal ⟨1, ![n]⟩ φ) (v : Fin N) :
    Host.scatterAdd (F := Ideal) d x idx upd (ix1 v)
      = x (ix1 v)
        + ∑ e ∈ Finset.univ.filter (fun e : Fin n => (idx (ix2 e 0)).toInt = (v.val : ℤ)), upd (ix1 e) := by
  unfold Host.scatterAdd
  rw [Ideal.hostScatterAdd_def]
  exact hostScatterAdd_vec d huw hiw hsd hivd x idx upd v

end Cert.LibScatterGatherRows
-- ==== Proof.HostRead.lean ====
/-
  The host computations before the region, read at an index at the ideal instance.

  With every index word in range the wrap leaves the word alone and jnp.take's in-bounds test passes at every edge,
  so the taken row of edge e is the table's row the word names; the packed distance at (R, g) is the distance of
  edge 4 R + g; and lane l of a tiled row is the row's entry l mod 32.
-/
import proofs.«429030_j20272245637563_3_alg».proof.Proof.HostDefs
import proofs.«429030_j20272245637563_3_alg».proof.Proof.Spec
import proofs.«429030_j20272245637563_3_alg».proof.Proof.LibScatterGatherRows
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.HostValue

open Cert.KernelIdeal Cert.KernelIdeal.Gen Idealize.ShloMosaic Idealize.ShloMosaic.ValueIdx
open Cert.RbfSpec

/-! ## The index words -/

/-- The flattened row of index words at edge e is the row's entry (0, e). -/
theorem flat_apply (a : IVec S1x2000000 32) (e : Fin 2000000) :
    shapeCast S2000000 a shapeCasts_S1x2000000_S2000000 (ix1 e) = a (ix2 0 e) :=
  shapeCast_apply _ _ (ix1 e) (ix2 0 e) (by
    rw [Shape.rowMajor_val_two, Shape.rowMajor_val_one]
    show 0 * 2000000 + e.val = e.val
    omega)

/-- The wrapped word of edge e. -/
theorem wrapped_apply (idx : IVec S2000000 32) (e : Fin 2000000) : wrapped idx (ix1 e) = wrapIdx (idx (ix1 e)) := rfl

/-- The index column at (e, 0) is the wrapped word of edge e. -/
theorem idxCol_apply (idx : IVec S2000000 32) (e : Fin 2000000) : idxCol idx (ix2 e 0) = wrapIdx (idx (ix1 e)) := by
  unfold idxCol
  rw [broadcastInDim_apply _ _ _ (ix2 e 0) (ix1 e) (fun a => match a with
    | ⟨0, _⟩ => by show e.val = if (2000000 : Nat) = 1 then 0 else e.val; rw [if_neg (by decide)])]
  rfl

/-- A reduction by and from 1 over an array of ones is 1. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  generalize ((List.finRange s.numel).filter fun n => h.drop (s.rowMajor.symm n) = j) = l
  induction l with
  | nil => rfl
  | cons a l ih =>
    rw [List.foldl_cons, hx]
    exact ih

/-- With every word in range the in-bounds test passes at every edge. -/
theorem inBounds_apply (idx : IVec S2000000 32) (hall : ∀ e : Fin 2000000, InRange (idx (ix1 e))) (e : Fin 2000000) :
    inBounds idx (ix1 e) = 1#1 := by
  unfold inBounds
  refine reduce_andi_ones _ _ _ _ (fun i => ?_) rfl _
  obtain ⟨e', z, rfl⟩ : ∃ (e' : Fin 2000000) (z : Fin 1), i = ix2 e' z := ⟨i 0, i 1, eq_ix2 i⟩
  obtain rfl : z = 0 := Subsingleton.elim _ _
  show IntOp.andi (IntOp.cmpi .sge (idxCol idx (ix2 e' 0)) 0#32) (IntOp.cmpi .sle (idxCol idx (ix2 e' 0)) 99999#32) = 1#1
  rw [idxCol_apply]
  exact take_mask_of_inRange (hall e')

/-! ## The rows jnp.take reads -/

/-- With every word in range the taken row of edge e, coordinate k, is the table at the row the word names. -/
theorem takeRows_apply (x : FVec Ideal S100000x3 .f32) (idx : IVec S2000000 32)
    (hall : ∀ e : Fin 2000000, InRange (idx (ix1 e))) (e : Fin 2000000) (k : Fin 3) :
    takeRows x idx (ix2 e k) = x (ix2 (nodeRow (idx (ix1 e))) k) := by
  have hm : broadcastInDim S2000000x3 ![0] bcast_S2000000_S2000000x3_0 (inBounds idx) (ix2 e k) = 1#1 := by
    rw [broadcastInDim_apply _ _ _ (ix2 e k) (ix1 e) (fun a => match a with
      | ⟨0, _⟩ => by show e.val = if (2000000 : Nat) = 1 then 0 else e.val; rw [if_neg (by decide)])]
    exact inBounds_apply idx hall e
  unfold takeRows
  rw [select_apply, hm, select_one,
    Cert.LibScatterGatherRows.gather_rows _ rfl rfl rfl rfl rfl x _ e k (by decide)]
  refine congrArg x (congrArg (fun r : Fin 100000 => ix2 r k) (Fin.ext ?_))
  show min (BitVec.toInt (idxCol idx (ix2 e 0))).toNat (100000 - 1) = min (wrapIdx (idx (ix1 e))).toInt.toNat (100000 - 1)
  rw [idxCol_apply]

/-! ## The packed distances -/

/-- The host's square root at an index is the ideal square root of the element. -/
theorem hostSqrt_apply {s : Shape} {φ : FTy} (y : FVec Ideal s φ) (i : s.Idx) : Host.sqrt y i = Ideal.sqrt (y i) := rfl

/-- The host's sum over the three coordinates of edge e: the initial value plus the three entries of row e. -/
theorem sum_coords (y : FVec Ideal S2000000x3 .f32) (init : EReal) (e : Fin 2000000) :
    Ideal.hostReduceAdd reducesTo_S2000000x3_S2000000_d1 y init (ix1 e) = init + ∑ k : Fin 3, y (ix2 e k) := by
  rw [Ideal.hostReduceAdd_single reducesTo_S2000000x3_S2000000_d1 (by decide)]
  refine congrArg (init + ·) (Finset.sum_congr rfl fun k _ => ?_)
  exact congrArg y (funext fun a => Fin.ext (by match a with | ⟨0, _⟩ => rfl | ⟨1, _⟩ => rfl))

/-- With every word in range the packed distance at (R, g) is the distance of edge 4 R + g. -/
theorem packedDist_apply (x : FVec Ideal S100000x3 .f32) (a1 a2 : IVec S1x2000000 32)
    (h1 : ∀ e : Fin 2000000, InRange (a1 (ix2 0 e))) (h2 : ∀ e : Fin 2000000, InRange (a2 (ix2 0 e)))
    (R : Fin 500000) (g : Fin 4) :
    packedDist x a1 a2 (ix2 R g)
      = edgeDist x (a1 (ix2 0 ⟨4 * R.val + g.val, by have := R.isLt; have := g.isLt; omega⟩))
          (a2 (ix2 0 ⟨4 * R.val + g.val, by have := R.isLt; have := g.isLt; omega⟩)) := by
  have hR := R.isLt
  have hg := g.isLt
  have f1 : ∀ e : Fin 2000000, InRange (shapeCast S2000000 a1 shapeCasts_S1x2000000_S2000000 (ix1 e)) := fun e => by
    rw [flat_apply]; exact h1 e
  have f2 : ∀ e : Fin 2000000, InRange (shapeCast S2000000 a2 shapeCasts_S1x2000000_S2000000 (ix1 e)) := fun e => by
    rw [flat_apply]; exact h2 e
  unfold packedDist
  rw [shapeCast_apply _ _ (ix2 R g) (ix1 ⟨4 * R.val + g.val, by omega⟩) (by
    rw [Shape.rowMajor_val_one, Shape.rowMajor_val_two]
    show 4 * R.val + g.val = R.val * 4 + g.val
    omega)]
  rw [hostSqrt_apply, hostReduceAdd_apply, sum_coords]
  unfold edgeDist
  refine congrArg Ideal.sqrt (congrArg₂ (fun a b : EReal => a + b) rfl (Finset.sum_congr rfl fun k _ => ?_))
  rw [mulf_apply, subf_apply, takeRows_apply x _ f1, takeRows_apply x _ f2, flat_apply, flat_apply]

/-! ## The tiled rows -/

/-- Lane l of a row [1, 32] tiled four times is the row's entry l mod 32. -/
theorem tiled_apply (y : FVec Ideal S1x32 .f32) (l : Fin 128) :
    tiled y (ix2 0 l) = y (ix2 0 ⟨l.val % 32, Nat.mod_lt _ (by decide)⟩) := by
  have hl := l.isLt
  have hq : l.val % 32 < 32 := Nat.mod_lt _ (by decide)
  have hd : l.val / 32 < 4 := by omega
  unfold tiled
  rw [shapeCast_apply _ _ (ix2 0 l) (ix4 0 0 ⟨l.val / 32, hd⟩ ⟨l.val % 32, hq⟩) (by
      rw [Shape.rowMajor_val_four, Shape.rowMajor_val_two]
      show ((0 * 1 + 0) * 4 + l.val / 32) * 32 + l.val % 32 = 0 * 128 + l.val
      omega),
    broadcastInDim_apply _ _ _ (ix4 0 0 ⟨l.val / 32, hd⟩ ⟨l.val % 32, hq⟩) (ix4 0 0 0 ⟨l.val % 32, hq⟩) (fun a => match a with
      | ⟨0, _⟩ => by show 0 = if (1 : Nat) = 1 then 0 else _; rw [if_pos rfl]
      | ⟨1, _⟩ => by show 0 = if (1 : Nat) = 1 then 0 else _; rw [if_pos rfl]
      | ⟨2, _⟩ => by show 0 = if (1 : Nat) = 1 then 0 else _; rw [if_pos rfl]
      | ⟨3, _⟩ => by show l.val % 32 = if (32 : Nat) = 1 then 0 else l.val % 32; rw [if_neg (by decide)]),
    shapeCast_apply _ _ (ix4 0 0 0 ⟨l.val % 32, hq⟩) (ix2 0 ⟨l.val % 32, hq⟩) (by
      rw [Shape.rowMajor_val_two, Shape.rowMajor_val_four]
      show 0 * 32 + l.val % 32 = ((0 * 1 + 0) * 1 + 0) * 32 + l.val % 32
      omega)]

end Cert.KernelIdeal.HostValue

end
-- ==== Proof.KernelPayload.lean ====
/-
  One element of what the kernel body stores, from the blocks it loads.

  The body loads a block r[10000, 4] of packed distances (four edges to a row) and the tiled centres and widths
  mu[1, 128], beta[1, 128]. It first spreads each row's four distances over the 128 lanes, edge g of the row filling
  lanes 32 g … 32 g + 31 (a concatenation along the lanes of four column broadcasts), so lane l of row p holds
  r[p, l / 32]; the centres and widths are broadcast down the rows, so lane l of every row sees mu[0, l] and
  beta[0, l]. Everything after that is pointwise, and is the radial basis function in its product spelling.
-/
import proofs.«429030_j20272245637563_3_alg».proof.Proof.Gen.KernelIdeal.Skeleton
import proofs.«429030_j20272245637563_3_alg».proof.Proof.Spec
import Idealize.ShloMosaic.Lib.Pipeline.Value
import Idealize.ShloMosaic.Lib.ValueIdx
import Idealize.ShloMosaic.PureOps.IdealRules

noncomputable section

namespace Cert.KernelIdeal.Payload

open Cert.KernelIdeal Cert.KernelIdeal.Gen Idealize.ShloMosaic Idealize.ShloMosaic.TcCoe Idealize.ShloMosaic.ValueIdx
open Cert.RbfSpec

/-- The kernel's named reciprocal of the cutoff denotes the rational 1/5 at the ideal instance. -/
theorem inv5 : Named.named (F := Ideal) κ "inv_5" (φ := .f32) 0x3E4CCCCD#32 = (((1 / 5 : ℝ)) : EReal) :=
  IdealRules.named_const.ideal_named_scalar _ _ _ _ rfl

/-- Column g of the block, broadcast over 32 lanes, reads the block at (p, g) in every lane. -/
theorem lane_group {α : Type} (x : S10000x4.Idx → α) (g : Nat) (hg : g < 4) (hs : S10000x4.Slices ![0, g] S10000x1)
    (p : Fin 10000) (q : Fin 32) :
    broadcastTo S10000x32 (shapeCast S10000x1 (extractStridedSlice S10000x1 ![0, g] (shapeCast S10000x4 x shapeCasts_S10000x4_S10000x4) hs)
      shapeCasts_S10000x1_S10000x1) broadcasts_S10000x1_S10000x32 (ix2 p q) = x (ix2 p ⟨g, hg⟩) := by
  rw [broadcastTo_apply _ _ (ix2 p q) (ix2 p 0) (fun a => match a with
      | ⟨0, _⟩ => by show p.val = if (10000 : Nat) = 1 then 0 else p.val; rw [if_neg (by decide)]
      | ⟨1, _⟩ => by show 0 = if (1 : Nat) = 1 then 0 else _; rw [if_pos rfl]),
    shapeCast_self,
    extractStridedSlice_apply _ _ _ (ix2 p 0) (ix2 p ⟨g, hg⟩) (fun a => match a with
      | ⟨0, _⟩ => by show p.val = 0 + p.val; omega
      | ⟨1, _⟩ => by show g = g + 0; omega),
    shapeCast_self]

/-- A row [1, 128] broadcast down 10000 rows reads the row at lane l in every row. -/
theorem row_bcast {α : Type} (y : S1x128.Idx → α) (p : Fin 10000) (l : Fin 128) :
    broadcastTo S10000x128 y broadcasts_S1x128_S10000x128 (ix2 p l) = y (ix2 0 l) :=
  broadcastTo_apply _ _ (ix2 p l) (ix2 0 l) (fun a => match a with
    | ⟨0, _⟩ => by show 0 = if (1 : Nat) = 1 then 0 else _; rw [if_pos rfl]
    | ⟨1, _⟩ => by show l.val = if (128 : Nat) = 1 then 0 else l.val; rw [if_neg (by decide)])

/-- The block's distances spread over the lanes: four column broadcasts laid side by side. -/
def spread {α : Type} (x : S10000x4.Idx → α) : S10000x128.Idx → α :=
  concatenate S10000x128 1
    [⟨S10000x32, broadcastTo S10000x32 (shapeCast S10000x1 (extractStridedSlice S10000x1 ![0, 0] (shapeCast S10000x4 x shapeCasts_S10000x4_S10000x4) slices_S10000x4_o0_0_S10000x1) shapeCasts_S10000x1_S10000x1) broadcasts_S10000x1_S10000x32⟩,
     ⟨S10000x32, broadcastTo S10000x32 (shapeCast S10000x1 (extractStridedSlice S10000x1 ![0, 1] (shapeCast S10000x4 x shapeCasts_S10000x4_S10000x4) slices_S10000x4_o0_1_S10000x1) shapeCasts_S10000x1_S10000x1) broadcasts_S10000x1_S10000x32⟩,
     ⟨S10000x32, broadcastTo S10000x32 (shapeCast S10000x1 (extractStridedSlice S10000x1 ![0, 2] (shapeCast S10000x4 x shapeCasts_S10000x4_S10000x4) slices_S10000x4_o0_2_S10000x1) shapeCasts_S10000x1_S10000x1) broadcasts_S10000x1_S10000x32⟩,
     ⟨S10000x32, broadcastTo S10000x32 (shapeCast S10000x1 (extractStridedSlice S10000x1 ![0, 3] (shapeCast S10000x4 x shapeCasts_S10000x4_S10000x4) slices_S10000x4_o0_3_S10000x1) shapeCasts_S10000x1_S10000x1) broadcasts_S10000x1_S10000x32⟩]
    concatenates_S10000x32_S10000x32_S10000x32_S10000x32_S10000x128_d1

/-- Lane l of row p of the spread block is the block at (p, l / 32). -/
theorem spread_apply {α : Type} (x : S10000x4.Idx → α) (p : Fin 10000) (l : Fin 128) :
    spread x (ix2 p l) = x (ix2 p ⟨l.val / 32, by have := l.isLt; omega⟩) := by
  have hl := l.isLt
  have hq : l.val % 32 < 32 := Nat.mod_lt _ (by decide)
  unfold spread
  have key : ∀ (g : Nat) (hg : g < 4), l.val / 32 = g →
      ∀ (piece : S10000x32.Idx → α) (hp : piece (ix2 p ⟨l.val % 32, hq⟩) = x (ix2 p ⟨g, hg⟩))
        (xs : List ((s : Shape) × (s.Idx → α))) (h : Shape.Concatenates (xs.map (·.1)) S10000x128 1)
        (hk : g < xs.length) (hxk : xs[g] = ⟨S10000x32, piece⟩)
        (hpre : (((xs.take g).map (·.1)).map fun s => if h : s.rank = S10000x128.rank then s.size ((1 : Fin S10000x128.rank).cast h.symm) else 0).sum = 32 * g),
        concatenate S10000x128 1 xs h (ix2 p l) = x (ix2 p ⟨l.val / 32, by omega⟩) := by
    intro g hg hlg piece hp xs h hk hxk hpre
    rw [concatenate_apply_piece (1 : Fin S10000x128.rank) xs h (ix2 p l) g hk S10000x32 piece hxk rfl (32 * g) hpre
      (ix2 p ⟨l.val % 32, hq⟩)
      (fun b hb => match b with
        | ⟨0, _⟩ => rfl
        | ⟨1, _⟩ => absurd rfl hb)
      (by show 32 * g + l.val % 32 = l.val; omega), hp]
    exact congrArg x (congrArg (ix2 p) (Fin.ext hlg.symm))
  have h4 : l.val / 32 = 0 ∨ l.val / 32 = 1 ∨ l.val / 32 = 2 ∨ l.val / 32 = 3 := by omega
  rcases h4 with h | h | h | h
  · exact key 0 (by decide) h _ (lane_group x 0 (by decide) _ p ⟨l.val % 32, hq⟩) _ _ (by simp) rfl rfl
  · exact key 1 (by decide) h _ (lane_group x 1 (by decide) _ p ⟨l.val % 32, hq⟩) _ _ (by simp) rfl rfl
  · exact key 2 (by decide) h _ (lane_group x 2 (by decide) _ p ⟨l.val % 32, hq⟩) _ _ (by simp) rfl rfl
  · exact key 3 (by decide) h _ (lane_group x 3 (by decide) _ p ⟨l.val % 32, hq⟩) _ _ (by simp) rfl rfl

/-- THE PAYLOAD AT (p, l): the radial basis function in its product spelling, of the block's distance at
    (p, l / 32), the tiled centre at lane l and the tiled width at lane l. -/
theorem pay_apply (x0 : Vec Ideal S10000x4 .f32) (x1 x2 : Vec Ideal S1x128 .f32) (p : Fin 10000) (l : Fin 128) :
    k0_pay1 (F := Ideal) x0 x1 x2 (ix2 p l)
      = rbfMul (((1 / 5 : ℝ)) : EReal) (x0 (ix2 p ⟨l.val / 32, by have := l.isLt; omega⟩)) (x1 (ix2 0 l)) (x2 (ix2 0 l)) := by
  have e0 : spread x0 (ix2 p l) = x0 (ix2 p ⟨l.val / 32, by have := l.isLt; omega⟩) := spread_apply x0 p l
  have e1 := row_bcast x1 p l
  have e2 := row_bcast (subf (broadcast S1x128 (Scalar.ofBits (F := Ideal) .f32 0x00000000#32)) x2) p l
  rw [← e0, ← e1]
  unfold rbfMul
  rw [← inv5]
  exact congrArg₂ (fun a b => a * b) (congrArg Ideal.exp (congrArg₂ (fun a b => a * b) e2 rfl)) rfl

end Cert.KernelIdeal.Payload

end
-- ==== Proof.KernelBlocks.lean ====
/-
  The blocks the kernel body loads at a grid point, and one element of what it stores there.

  Grid point t reads rows 10000 t … 10000 t + 9999 of the packed distances and the whole tiled centres and widths, and
  stores rows 10000 t … of the packed result [500000, 128], whose element (R, l) is the radial basis function of the
  distance of edge 4 R + l / 32 at the centre and width l mod 32.
-/
import proofs.«429030_j20272245637563_3_alg».proof.Proof.Gen.KernelIdeal.Frame
import proofs.«429030_j20272245637563_3_alg».proof.Proof.HostEntry
import proofs.«429030_j20272245637563_3_alg».proof.Proof.HostRead
import proofs.«429030_j20272245637563_3_alg».proof.Proof.KernelPayload
import proofs.«429030_j20272245637563_3_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.HostValue Cert.KernelIdeal.Payload Cert.RbfSpec

variable (m : (ℓ : Loc nD τ sig) → Buf (Elt Ideal) ℓ) (ρ : Dev nD → PrngReg)

/-- The five argument arrays on core c, at their literal types. -/
abbrev coords (c : Dev nD) : FVec Ideal S100000x3 .f32 := m ((c : Thread nD τ).loc main_arg0)
abbrev recvs (c : Dev nD) : IVec S1x2000000 32 := m ((c : Thread nD τ).loc main_arg1)
abbrev sends (c : Dev nD) : IVec S1x2000000 32 := m ((c : Thread nD τ).loc main_arg2)
abbrev centres (c : Dev nD) : FVec Ideal S1x32 .f32 := m ((c : Thread nD τ).loc main_arg3)
abbrev widths (c : Dev nD) : FVec Ideal S1x32 .f32 := m ((c : Thread nD τ).loc main_arg4)

/-- Every receiver word and every sender word on core c names a row of the table. -/
def IdxOk (c : Dev nD) : Prop :=
  (∀ e : Fin 2000000, InRange (recvs m c (ix2 0 e))) ∧ (∀ e : Fin 2000000, InRange (sends m c (ix2 0 e)))

/-- The packed result [500000, 128] as one function: element (R, l) from edge 4 R + l / 32 and basis l mod 32. -/
def packedOut (c : Dev nD) : S500000x128.Idx → EReal := fun i =>
  rbfMul (((1 / 5 : ℝ)) : EReal)
    (edgeDist (coords m c)
      (recvs m c (ix2 0 ⟨4 * (i 0).val + (i 1).val / 32, by have := idx2_lt0 i; have := idx2_lt1 i; omega⟩))
      (sends m c (ix2 0 ⟨4 * (i 0).val + (i 1).val / 32, by have := idx2_lt0 i; have := idx2_lt1 i; omega⟩)))
    (centres m c (ix2 0 ⟨(i 1).val % 32, Nat.mod_lt _ (by decide)⟩))
    (widths m c (ix2 0 ⟨(i 1).val % 32, Nat.mod_lt _ (by decide)⟩))

/-- The printed index maps, decided over the fifty grid points: the distances' block and the result's block move
    down the rows with the point, the centres' and the widths' blocks stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 50 := lt_of_lt_of_eq t.isLt (show cfg0.N = 50 from N_0)

/-- The arrays the three input windows stage, as the region finds them. -/
theorem arr_dist (c : Dev nD) : V m c (Pipeline.arrRef spec0 0) = packedDist (coords m c) (recvs m c) (sends m c) := V_dist m c
theorem arr_mu (c : Dev nD) : V m c (Pipeline.arrRef spec0 1) = tiled (centres m c) := V_mu m c
theorem arr_beta (c : Dev nD) : V m c (Pipeline.arrRef spec0 2) = tiled (widths m c) := V_beta m c

/-! ## The blocks the body loads -/

/-- Row p of point t's block of distances is row 10000 t + p of the packed distances. -/
theorem dist_blk (c : Dev nD) (t : Fin cfg0.N) (p : Fin 10000) (g : Fin 4) :
    (iblk m c 0 t : Vec Ideal S10000x4 .f32) (ix2 p g)
      = packedDist (coords m c) (recvs m c) (sends m c)
          (ix2 ⟨10000 * t.val + p.val, by have := t_lt t; have := p.isLt; omega⟩ g) := by
  obtain ⟨e0, e1, -⟩ := idx_facts t
  have h : (iblk m c 0 t : Vec Ideal S10000x4 .f32) (ix2 p g)
      = V m c (Pipeline.arrRef spec0 0) (((cfg0.win 0).blk t).view.emb (ix2 p g)) := by
    unfold iblk; rw [View.read_apply]; exact cast_eq _ _
  rw [h, arr_dist]
  refine congrArg (packedDist (coords m c) (recvs m c) (sends m c)) (funext fun a => Fin.ext ?_)
  match a with
  | ⟨0, _⟩ => show win0_0.index t (0 : Fin 2) * 10000 + 1 * p.val = 10000 * t.val + p.val; rw [e0]; omega
  | ⟨1, _⟩ => show win0_0.index t (1 : Fin 2) * 4 + 1 * g.val = g.val; rw [e1]; omega

/-- Every point's block of centres is the tiled centres. -/
theorem mu_blk (c : Dev nD) (t : Fin cfg0.N) (l : Fin 128) :
    (iblk m c 1 t : Vec Ideal S1x128 .f32) (ix2 0 l) = tiled (centres m c) (ix2 0 l) := by
  obtain ⟨-, -, e0, e1, -⟩ := idx_facts t
  have h : (iblk m c 1 t : Vec Ideal S1x128 .f32) (ix2 0 l)
      = V m c (Pipeline.arrRef spec0 1) (((cfg0.win 1).blk t).view.emb (ix2 0 l)) := by
    unfold iblk; rw [View.read_apply]; exact cast_eq _ _
  rw [h, arr_mu]
  refine congrArg (tiled (centres m c)) (funext fun a => Fin.ext ?_)
  match a with
  | ⟨0, _⟩ => show win0_1.index t (0 : Fin 2) * 1 + 1 * 0 = 0; rw [e0]
  | ⟨1, _⟩ => show win0_1.index t (1 : Fin 2) * 128 + 1 * l.val = l.val; rw [e1]; omega

/-- Every point's block of widths is the tiled widths. -/
theorem beta_blk (c : Dev nD) (t : Fin cfg0.N) (l : Fin 128) :
    (iblk m c 2 t : Vec Ideal S1x128 .f32) (ix2 0 l) = tiled (widths m c) (ix2 0 l) := by
  obtain ⟨-, -, -, -, e0, e1, -⟩ := idx_facts t
  have h : (iblk m c 2 t : Vec Ideal S1x128 .f32) (ix2 0 l)
      = V m c (Pipeline.arrRef spec0 2) (((cfg0.win 2).blk t).view.emb (ix2 0 l)) := by
    unfold iblk; rw [View.read_apply]; exact cast_eq _ _
  rw [h, arr_beta]
  refine congrArg (tiled (widths m c)) (funext fun a => Fin.ext ?_)
  match a with
  | ⟨0, _⟩ => show win0_2.index t (0 : Fin 2) * 1 + 1 * 0 = 0; rw [e0]
  | ⟨1, _⟩ => show win0_2.index t (1 : Fin 2) * 128 + 1 * l.val = l.val; rw [e1]; omega

/-- One element of what point t stores: the radial basis function of edge 4 (10000 t + p) + l / 32 at basis l mod 32. -/
theorem stored_elem (c : Dev nD) (hok : IdxOk m c) (t : Fin cfg0.N) (p : Fin 10000) (l : Fin 128) :
    k0_pay1 (F := Ideal) (iblk m c 0 t) (iblk m c 1 t) (iblk m c 2 t) (ix2 p l)
      = packedOut m c (ix2 ⟨10000 * t.val + p.val, by have := t_lt t; have := p.isLt; omega⟩ l) := by
  refine (pay_apply (iblk m c 0 t) (iblk m c 1 t) (iblk m c 2 t) p l).trans ?_
  rw [dist_blk, mu_blk, beta_blk, packedDist_apply _ _ _ hok.1 hok.2, tiled_apply, tiled_apply]
  rfl

end Cert.KernelIdeal.ArrayValue

end
-- ==== Proof.KernelArray.lean ====
/-
  The packed array after the region: what each grid point writes back, and that the fifty blocks tile the array.
-/
import proofs.«429030_j20272245637563_3_alg».proof.Proof.Gen.KernelIdeal.Frame
import proofs.«429030_j20272245637563_3_alg».proof.Proof.KernelBlocks
import proofs.«429030_j20272245637563_3_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.HostValue Cert.KernelIdeal.Payload Cert.RbfSpec

variable (m : (ℓ : Loc nD τ sig) → Buf (Elt Ideal) ℓ) (ρ : Dev nD → PrngReg)

theorem hz : (![0, 0] : Fin 2 → Nat) = fun _ => 0 := funext fun a => by fin_cases a <;> rfl

/-- Where element (p, l) of point t's result block lies in the packed array. -/
theorem out_emb (t : Fin cfg0.N) (p : Fin 10000) (l : Fin 128) :
    ((cfg0.win 3).blk t).view.emb (ix2 p l)
      = (ix2 ⟨10000 * t.val + p.val, by have := t_lt t; have := p.isLt; omega⟩ l : S500000x128.Idx) := by
  obtain ⟨-, -, -, -, -, -, e0, e1⟩ := idx_facts t
  funext a
  apply Fin.ext
  match a with
  | ⟨0, _⟩ => show win0_3.index t (0 : Fin 2) * 10000 + 1 * p.val = 10000 * t.val + p.val; rw [e0]; omega
  | ⟨1, _⟩ => show win0_3.index t (1 : Fin 2) * 128 + 1 * l.val = l.val; rw [e1]; omega

/-- WHAT POINT t WRITES BACK is block t of the packed result. -/
theorem flushed_eq (c : Dev nD) (hok : IdxOk m c) (t : Fin cfg0.N) :
    (dats m 0 c).flushed 3 t = ((cfg0.win 3).blk t).view.read (Elt Ideal) (packedOut m c) := by
  show (cfg0.win 3).cut (grid0.coords t) ((dats m 0 c).after 3 t) = _
  rw [after0_3]
  unfold out0_3
  rw [View.canon_unit_zero hz]
  simp only [View.ld_unit_zero (S := S10000x4) hz, View.ld_unit_zero (S := S1x128) hz]
  funext j
  obtain ⟨p, l, rfl⟩ : ∃ (p : Fin 10000) (l : Fin 128), j = ix2 p l := ⟨j 0, j 1, eq_ix2 j⟩
  show k0_pay1 (F := Ideal) (iblk m c 0 t) (iblk m c 1 t) (iblk m c 2 t) (ix2 p l)
    = packedOut m c (((cfg0.win 3).blk t).view.emb (ix2 p l))
  rw [out_emb]
  exact stored_elem m c hok t p l

/-- An index of the packed array is in point t's block iff each coordinate is in the block's range on its axis. -/
theorem mem_blk (t : Fin cfg0.N) (i : S500000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v15).slice (win0_3.rect t)).set ↔ _
  rw [View.set_slice_whole, Rect.mem_set_unit]
  exact Iff.rfl

/-- The fifty blocks tile the packed array: row R lies in the block of point R / 10000. -/
theorem cover (i : S500000x128.Idx) :
    ∃ t : Fin cfg0.N, (cfg0.win 3).flush t = true ∧ i ∈ ((cfg0.win 3).blk t).view.set := by
  have h0 : (i 0).val < 500000 := idx2_lt0 i
  have h1 : (i 1).val < 128 := idx2_lt1 i
  let t : Fin cfg0.N := ⟨(i 0).val / 10000, by rw [show cfg0.N = 50 from N_0]; omega⟩
  obtain ⟨-, -, -, -, -, -, e0, e1⟩ := idx_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    rw [e0]
    show (i 0).val / 10000 * 10000 ≤ (i 0).val ∧ (i 0).val < (i 0).val / 10000 * 10000 + 10000
    omega
  | ⟨1, _⟩ =>
    show win0_3.index t (1 : Fin 2) * 128 ≤ (i 1).val ∧ (i 1).val < win0_3.index t (1 : Fin 2) * 128 + 128
    rw [e1]
    omega

/-- THE PACKED ARRAY after the run. -/
theorem final (c : Dev nD) (hok : IdxOk m c) : (dats m 0 c).arrAt 3 cfg0.N = packedOut m c :=
  (dats m 0 c).arrAt_eq_of_cover 3 (packedOut m c) (fun t _ => flushed_eq m c hok t) (cover)

end Cert.KernelIdeal.ArrayValue

end
-- ==== Proof.KernelResult.lean ====
/-
  The kernel's result array: the host reshapes the packed array [500000, 128] to [2000000, 32], so element (e, b) is
  element (e / 4, 32 (e mod 4) + b) of the packed array, which is edge e at basis function b — the specification.
-/
import proofs.«429030_j20272245637563_3_alg».proof.Proof.Gen.KernelIdeal.Frame
import proofs.«429030_j20272245637563_3_alg».proof.Proof.KernelArray
import proofs.«429030_j20272245637563_3_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.HostValue Cert.KernelIdeal.Payload Cert.RbfSpec

variable (m : (ℓ : Loc nD τ sig) → Buf (Elt Ideal) ℓ) (ρ : Dev nD → PrngReg)

/-! ## The host's reshape after the region -/

/-- THE RESULT ARRAY: the packed array reshaped [2000000, 32] is the specification of the arguments. -/
theorem result_eq (c : Dev nD) (hok : IdxOk m c) :
    Pipeline.afterTail₀ cfgs (dats m) 0 (V0 m) [hostOps1] c main_v16
      = G (coords m c) (recvs m c) (sends m c) (centres m c) (widths m c) := by
  unfold Pipeline.afterTail₀
  show StableHlo.after hostOps1 _ (Proc.devRef .tc main_v16) = _
  after_results
  rw [(Pipeline.withArrays_arr spec0 launch0.win.arr_inj c (V0 m c) (fun w => (dats m 0 c).arrAt w (cfgs 0).N) 3).trans (final m c hok)]
  funext i
  obtain ⟨e, b, rfl⟩ : ∃ (e : Fin 2000000) (b : Fin 32), i = ix2 e b := ⟨i 0, i 1, eq_ix2 i⟩
  have he := e.isLt
  have hb := b.isLt
  show shapeCast S2000000x32 (packedOut m c) shapeCasts_S500000x128_S2000000x32 (ix2 e b) = _
  rw [shapeCast_apply _ _ (ix2 e b) (ix2 ⟨e.val / 4, by omega⟩ ⟨32 * (e.val % 4) + b.val, by omega⟩) (by
      rw [Shape.rowMajor_val_two, Shape.rowMajor_val_two]
      show e.val / 4 * 128 + (32 * (e.val % 4) + b.val) = e.val * 32 + b.val
      omega),
    G_apply, ← rbfMul_eq_rbfDiv]
  have h1 : 4 * (e.val / 4) + (32 * (e.val % 4) + b.val) / 32 = e.val := by omega
  have h2 : (32 * (e.val % 4) + b.val) % 32 = b.val := by omega
  show rbfMul _ (edgeDist _ (recvs m c (ix2 0 ⟨4 * (e.val / 4) + (32 * (e.val % 4) + b.val) / 32, _⟩))
      (sends m c (ix2 0 ⟨4 * (e.val / 4) + (32 * (e.val % 4) + b.val) / 32, _⟩)))
    (centres m c (ix2 0 ⟨(32 * (e.val % 4) + b.val) % 32, _⟩)) (widths m c (ix2 0 ⟨(32 * (e.val % 4) + b.val) % 32, _⟩)) = _
  have q1 : (⟨4 * (e.val / 4) + (32 * (e.val % 4) + b.val) / 32, by omega⟩ : Fin 2000000) = e := Fin.ext h1
  have q2 : (⟨(32 * (e.val % 4) + b.val) % 32, Nat.mod_lt _ (by decide)⟩ : Fin 32) = b := Fin.ext h2
  rw [q1, q2]

/-! ## The run, read -/

/-- The kernel's run with its result array named: every weakly fair execution ends with the result at the
    specification of the arguments and the arguments unchanged. -/
theorem run (hok : ∀ c, IdxOk m c) :
    θ_run defs (onTc (τ := τ) (main (F := Ideal))) ⟨m, fun _ => 0, ρ⟩ (fun r => ∀ c : Dev nD,
      r.2.mem ((c.tc : Thread nD τ).loc main_v16) = G (coords m c) (recvs m c) (sends m c) (centres m c) (widths m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v16 (Pipeline.mem_restRefs_of main_v16 (by decide) (by decide))).trans (result_eq m c (hok c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.ArrayValue

end
-- ==== Proof.lean ====
/-
  The certificate: a radial-basis edge embedding computed by a tiled kernel against its jnp reference.

  For each of 2000000 edges both programs gather the two endpoints' coordinate rows from a table of 100000 nodes,
  take the Euclidean distance r, and for each of 32 basis functions form exp(-beta (exp(-r) - mu)^2) times the
  polynomial cutoff phi(r / 5). The kernel computes four edges to a 128-lane row on a grid of fifty row blocks and
  reshapes at the end; the reference works on a column of distances and broadcasts.

  The claim holds where the index words name rows of the table (0 ≤ word < 100000): there jnp.take, which the kernel's
  program uses and which fills a row it finds out of bounds, reads the same row as the reference's clamping gather.
  Index by index the two results are then one extended real: the kernel's named reciprocal is 1/5 and the host's
  quotient by 5 is the product with it, products commute, and 0 - x is -x. No step needs the inputs finite.
-/
import proofs.«429030_j20272245637563_3_alg».proof.Defs
import proofs.«429030_j20272245637563_3_alg».proof.Proof.Gen.Kernel
import proofs.«429030_j20272245637563_3_alg».proof.Proof.Gen.Kernel.Skeleton
import proofs.«429030_j20272245637563_3_alg».proof.Proof.Gen.Kernel.Launch
import proofs.«429030_j20272245637563_3_alg».proof.Proof.Gen.Kernel.Points
import proofs.«429030_j20272245637563_3_alg».proof.Proof.Gen.Kernel.Frame
import proofs.«429030_j20272245637563_3_alg».proof.Proof.Gen.KernelIdeal
import proofs.«429030_j20272245637563_3_alg».proof.Proof.Gen.KernelIdeal.Skeleton
import proofs.«429030_j20272245637563_3_alg».proof.Proof.Gen.KernelIdeal.Launch
import proofs.«429030_j20272245637563_3_alg».proof.Proof.Gen.KernelIdeal.Points
import proofs.«429030_j20272245637563_3_alg».proof.Proof.Gen.KernelIdeal.Frame
import proofs.«429030_j20272245637563_3_alg».proof.Proof.Gen.ReferenceIdeal
import proofs.«429030_j20272245637563_3_alg».proof.Proof.Gen.Pre_finite_inputs
import proofs.«429030_j20272245637563_3_alg».proof.Proof.Gen.ReferenceIdeal.Run
import proofs.«429030_j20272245637563_3_alg».proof.Proof.Gen.ReferenceIdeal.Read
import proofs.«429030_j20272245637563_3_alg».proof.Proof.RefValue
import proofs.«429030_j20272245637563_3_alg».proof.Proof.PreDecode
import proofs.«429030_j20272245637563_3_alg».proof.Proof.KernelResult
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the kernel's reciprocal of the cutoff is read as the rational 1/5. -/
theorem preserves : Cert.preserves_Kernel_KernelIdeal :=
  IdealRules.named_const.statement Cert.KernelIdeal.κ "inv_5" .f32 0x3E4CCCCD#32 ((1 / 5 : ℝ) : EReal) rfl

/-- Under the precondition every index word on every core names a row of the table. -/
theorem idx_ok (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.ArrayValue.IdxOk m c :=
  ⟨fun e => (Cert.Pre_finite_inputs.Decode.inRange_of_pre _ _ _ _ _ (hpre c) e).1,
    fun e => (Cert.Pre_finite_inputs.Decode.inRange_of_pre _ _ _ _ _ (hpre c) e).2⟩

/-- Both idealized programs end with their result array at the specification of the arguments, which agree. -/
theorem algebraic : Cert.algebraic_KernelIdeal_ReferenceIdeal := by
  intro m ρ m' ρ' hpre hagree
  refine ⟨_, Cert.KernelIdeal.ArrayValue.run m ρ (idx_ok m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.ref_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
